-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S20000x300 : Shape := ⟨2, ![20000, 300]⟩
abbrev S100000x16 : Shape := ⟨2, ![100000, 16]⟩
abbrev S2048x1024 : Shape := ⟨2, ![2048, 1024]⟩
abbrev S1024 : Shape := ⟨1, ![1024]⟩
abbrev S600x300 : Shape := ⟨2, ![600, 300]⟩
abbrev S300 : Shape := ⟨1, ![300]⟩
abbrev S2664x1024 : Shape := ⟨2, ![2664, 1024]⟩
abbrev S1024x117 : Shape := ⟨2, ![1024, 117]⟩
abbrev S117 : Shape := ⟨1, ![117]⟩
abbrev S100000 : Shape := ⟨1, ![100000]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S20000x300 : S_.BroadcastsInDim S20000x300 (![] : Fin 0 → Fin S20000x300.rank)
  reducesTo_S20000x300_S_d0_1 : S20000x300.ReducesTo [0, 1] S_
  bcast_S_S100000x16 : S_.BroadcastsInDim S100000x16 (![] : Fin 0 → Fin S100000x16.rank)
  reducesTo_S100000x16_S_d0_1 : S100000x16.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S600x300 : S_.BroadcastsInDim S600x300 (![] : Fin 0 → Fin S600x300.rank)
  reducesTo_S600x300_S_d0_1 : S600x300.ReducesTo [0, 1] S_
  bcast_S_S300 : S_.BroadcastsInDim S300 (![] : Fin 0 → Fin S300.rank)
  reducesTo_S300_S_d0 : S300.ReducesTo [0] S_
  bcast_S_S2664x1024 : S_.BroadcastsInDim S2664x1024 (![] : Fin 0 → Fin S2664x1024.rank)
  reducesTo_S2664x1024_S_d0_1 : S2664x1024.ReducesTo [0, 1] S_
  bcast_S_S1024x117 : S_.BroadcastsInDim S1024x117 (![] : Fin 0 → Fin S1024x117.rank)
  reducesTo_S1024x117_S_d0_1 : S1024x117.ReducesTo [0, 1] S_
  bcast_S_S117 : S_.BroadcastsInDim S117 (![] : Fin 0 → Fin S117.rank)
  reducesTo_S117_S_d0 : S117.ReducesTo [0] S_

variable [Facts]

def fn_part3 {F : FTy → Type} [FloatOps F] (main_arg11 : FVec F S1024x117 .f32) (main_arg12 : FVec F S117 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x117 .f32 := Host.absf main_arg11
  let main_cst_20 : FVec F S_ .f32 := constant S_ .f32 0x7F800000#32
  let main_v55 : FVec F S1024x117 .f32 := broadcastInDim S1024x117 ![] bcast_S_S1024x117 main_cst_20
  let main_v56 : IVec S1024x117 1 := cmpf .olt main_v54 main_v55
  let main_c_21 : IVec S_ 1 := constantI S_ 1 1#1
  let main_v57 : IVec S_ 1 := (fun x v => Host.reduce IntOp.andi x v reducesTo_S1024x117_S_d0_1 h_S_) main_v56 main_c_21
  let main_v58 : IVec S_ 1 := andi main_v53 main_v57
  let main_v59 : FVec F S117 .f32 := Host.absf main_arg12
  let main_cst_22 : FVec F S_ .f32 := constant S_ .f32 0x7F800000#32
  let main_v60 : FVec F S117 .f32 := broadcastInDim S117 ![] bcast_S_S117 main_cst_22
  let main_v61 : IVec S117 1 := cmpf .olt main_v59 main_v60
  let main_c_23 : IVec S_ 1 := constantI S_ 1 1#1
  let main_v62 : IVec S_ 1 := (fun x v => Host.reduce IntOp.andi x v reducesTo_S117_S_d0 h_S_) main_v61 main_c_23
  let main_v63 : IVec S_ 1 := andi main_v58 main_v62
  main_v63

def fn_part2 {F : FTy → Type} [FloatOps F] (main_arg7 : FVec F S600x300 .f32) (main_arg8 : FVec F S300 .f32) (main_arg9 : FVec F S2664x1024 .f32) (main_arg10 : FVec F S1024 .f32) (main_arg11 : FVec F S1024x117 .f32) (main_arg12 : FVec F S117 .f32) (main_v33 : IVec S_ 1) : IVec S_ 1 :=
  let main_v34 : FVec F S600x300 .f32 := Host.absf main_arg7
  let main_cst_12 : FVec F S_ .f32 := constant S_ .f32 0x7F800000#32
  let main_v35 : FVec F S600x300 .f32 := broadcastInDim S600x300 ![] bcast_S_S600x300 main_cst_12
  let main_v36 : IVec S600x300 1 := cmpf .olt main_v34 main_v35
  let main_c_13 : IVec S_ 1 := constantI S_ 1 1#1
  let main_v37 : IVec S_ 1 := (fun x v => Host.reduce IntOp.andi x v reducesTo_S600x300_S_d0_1 h_S_) main_v36 main_c_13
  let main_v38 : IVec S_ 1 := andi main_v33 main_v37
  let main_v39 : FVec F S300 .f32 := Host.absf main_arg8
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  let main_v44 : FVec F S2664x1024 .f32 := Host.absf main_arg9
  let main_cst_16 : FVec F S_ .f32 := constant S_ .f32 0x7F800000#32
  let main_v45 : FVec F S2664x1024 .f32 := broadcastInDim S2664x1024 ![] bcast_S_S2664x1024 main_cst_16
  let main_v46 : IVec S2664x1024 1 := cmpf .olt main_v44 main_v45
  let main_c_17 : IVec S_ 1 := constantI S_ 1 1#1
  let main_v47 : IVec S_ 1 := (fun x v => Host.reduce IntOp.andi x v reducesTo_S2664x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S100000x16 .f32) (main_arg5 : FVec F S2048x1024 .f32) (main_arg6 : FVec F S1024 .f32) (main_arg7 : FVec F S600x300 .f32) (main_arg8 : FVec F S300 .f32) (main_arg9 : FVec F S2664x1024 .f32) (main_arg10 : FVec F S1024 .f32) (main_arg11 : FVec F S1024x117 .f32) (main_arg12 : FVec F S117 .f32) (main_v13 : IVec S_ 1) (main_v16 : IVec S20000x300 1) : IVec S_ 1 :=
  let main_c_5 : IVec S_ 1 := constantI S_ 1 1#1
  let main_v17 : IVec S_ 1 := (fun x v => Host.reduce IntOp.andi x v reducesTo_S20000x300_S_d0_1 h_S_) main_v16 main_c_5
  let main_v18 : IVec S_ 1 := andi main_v13 main_v17
  let main_v19 : FVec F S100000x16 .f32 := Host.absf main_arg4
  let main_cst_6 : FVec F S_ .f32 := constant S_ .f32 0x7F800000#32
  let main_v20 : FVec F S100000x16 .f32 := broadcastInDim S100000x16 ![] bcast_S_S100000x16 main_cst_6
  let main_v21 : IVec S100000x16 1 := cmpf .olt main_v19 main_v20
  let main_c_7 : IVec S_ 1 := constantI S_ 1 1#1
  let main_v22 : IVec S_ 1 := (fun x v => Host.reduce IntOp.andi x v reducesTo_S100000x16_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S20000x1024 .f32) (main_arg1 : FVec F S20000x1024 .f32) (main_arg2 : FVec F S20000x300 .f32) (main_arg3 : FVec F S20000x300 .f32) (main_arg4 : FVec F S100000x16 .f32) (main_arg5 : FVec F S2048x1024 .f32) (main_arg6 : FVec F S1024 .f32) (main_arg7 : FVec F S600x300 .f32) (main_arg8 : FVec F S300 .f32) (main_arg9 : FVec F S2664x1024 .f32) (main_arg10 : FVec F S1024 .f32) (main_arg11 : FVec F S1024x117 .f32) (main_arg12 : FVec F S117 .f32) (main_arg13 : IVec S100000 32) (main_arg14 : IVec S100000 32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S20000x1024 .f32 := Host.absf main_arg1
  let main_cst_0 : FVec F S_ .f32 := constant S_ .f32 0x7F800000#32
  let main_v5 : FVec F S20000x1024 .f32 := broadcastInDim S20000x1024 ![] bcast_S_S20000x1024 main_cst_0
  let main_v6 : IVec S20000x1024 1 := cmpf .olt main_v4 main_v5
  let main_c_1 : IVec S_ 1 := constantI S_ 1 1#1
  let main_v7 : IVec S_ 1 := (fun x v => Host.reduce IntOp.andi x v reducesTo_S20000x1024_S_d0_1 h_S_) main_v6 main_c_1
  let main_v8 : IVec S_ 1 := andi main_v3 main_v7
  let main_v9 : FVec F S20000x300 .f32 := Host.absf main_arg2
  let main_cst_2 : FVec F S_ .f32 := constant S_ .f32 0x7F800000#32
  let main_v10 : FVec F S20000x300 .f32 := broadcastInDim S20000x300 ![] bcast_S_S20000x300 main_cst_2
  let main_v11 : IVec S20000x300 1 := cmpf .olt main_v9 main_v10
  let main_c_3 : IVec S_ 1 := constantI S_ 1 1#1
  let main_v12 : IVec S_ 1 := (fun x v => Host.reduce IntOp.andi x v reducesTo_S20000x300_S_d0_1 h_S_) main_v11 main_c_3
  let main_v13 : IVec S_ 1 := andi main_v8 main_v12
  let main_v14 : FVec F S20000x300 .f32 := Host.absf main_arg3
  let main_cst_4 : FVec F S_ .f32 := constant S_ .f32 0x7F800000#32
  let main_v15 : FVec F S20000x300 .f32 := broadcastInDim S20000x300 ![] bcast_S_S20000x300 main_cst_4
  let main_v16 : IVec S20000x300 1 := cmpf .olt main_v14 main_v15
  fn_part1 (F := F) main_arg4 main_arg5 main_arg6 main_arg7 main_arg8 main_arg9 main_arg10 main_arg11 main_arg12 main_v13 main_v16
-- ==== Kernel.lean ====
abbrev S20000x1024 : Shape := ⟨2, ![20000, 1024]⟩
abbrev S20000x300 : Shape := ⟨2, ![20000, 300]⟩
abbrev S100000x16 : Shape := ⟨2, ![100000, 16]⟩
abbrev S2048x1024 : Shape := ⟨2, ![2048, 1024]⟩
abbrev S1024 : Shape := ⟨1, ![1024]⟩
abbrev S600x300 : Shape := ⟨2, ![600, 300]⟩
abbrev S300 : Shape := ⟨1, ![300]⟩
abbrev S2664x1024 : Shape := ⟨2, ![2664, 1024]⟩
abbrev S1024x117 : Shape := ⟨2, ![1024, 117]⟩
abbrev S117 : Shape := ⟨1, ![117]⟩
abbrev S100000 : Shape := ⟨1, ![100000]⟩
abbrev S400x1024 : Shape := ⟨2, ![400, 1024]⟩
abbrev S400x300 : Shape := ⟨2, ![400, 300]⟩
abbrev S400x2048 : Shape := ⟨2, ![400, 2048]⟩
abbrev S1x1024 : Shape := ⟨2, ![1, 1024]⟩
abbrev S400x600 : Shape := ⟨2, ![400, 600]⟩
abbrev S1x300 : Shape := ⟨2, ![1, 300]⟩
abbrev S_ : Shape := ⟨0, ![]⟩
abbrev S100000x1 : Shape := ⟨2, ![100000, 1]⟩
abbrev S100000x1024 : Shape := ⟨2, ![100000, 1024]⟩
abbrev S100000x300 : Shape := ⟨2, ![100000, 300]⟩
abbrev S100000x117 : Shape := ⟨2, ![100000, 117]⟩
abbrev S400x16 : Shape := ⟨2, ![400, 16]⟩
abbrev S400x117 : Shape := ⟨2, ![400, 117]⟩
abbrev S400x2664 : Shape := ⟨2, ![400, 2664]⟩
abbrev S1x117 : Shape := ⟨2, ![1, 117]⟩

abbrev nBuf : Space → Nat
  | .hbm => 54
  | .vmem => 32
  | .smem => 0
  | _ => 0

abbrev bufTy : (tb : Table) → Fin (tcTables nBuf tb) → BufTy
  | .hbm, ⟨0, _⟩ => ⟨S20000x1024, .f32⟩
  | .hbm, ⟨1, _⟩ => ⟨S20000x1024, .f32⟩
  | .hbm, ⟨2, _⟩ => ⟨S20000x300, .f32⟩
  | .hbm, ⟨3, _⟩ => ⟨S20000x300, .f32⟩
  | .hbm, ⟨4, _⟩ => ⟨S100000x16, .f32⟩
  | .hbm, ⟨5, _⟩ => ⟨S2048x1024, .f32⟩
  | .hbm, ⟨6, _⟩ => ⟨S1024, .f32⟩
  | .hbm, ⟨7, _⟩ => ⟨S600x300, .f32⟩
  | .hbm, ⟨8, _⟩ => ⟨S300, .f32⟩
  | .hbm, ⟨9, _⟩ => ⟨S2664x1024, .f32⟩
  | .hbm, ⟨10, _⟩ => ⟨S1024, .f32⟩
  | .hbm, ⟨11, _⟩ => ⟨S1024x117, .f32⟩
  | .hbm, ⟨12, _⟩ => ⟨S117, .f32⟩
  | .hbm, ⟨13, _⟩ => ⟨S100000, .i32⟩
  | .hbm, ⟨14, _⟩ => ⟨S100000, .i32⟩
  | .hbm, ⟨15, _⟩ => ⟨S20000x1024, .f32⟩
  | .hbm, ⟨16, _⟩ => ⟨S20000x300, .f32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x1024, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x300, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000x1024, .f32⟩
  | .hbm, ⟨44, _⟩ => ⟨S_, .i32⟩
  | .hbm, ⟨45, _⟩ => ⟨S100000, .i32⟩
  | .hbm, ⟨46, _⟩ => ⟨S100000, .i1⟩
  | .hbm, ⟨47, _⟩ => ⟨S_, .i32⟩
  | .hbm, ⟨48, _⟩ => ⟨S100000, .i32⟩
  | .hbm, ⟨49, _⟩ => ⟨S100000, .i32⟩
  | .hbm, ⟨50, _⟩ => ⟨S100000, .i32⟩
  | .hbm, ⟨51, _⟩ => ⟨S100000x1, .i32⟩
  | .hbm, ⟨52, _⟩ => ⟨S100000x300, .f32⟩
  | .hbm, ⟨53, _⟩ => ⟨S100000x117, .f32⟩
  | .local _ .vmem, ⟨0, _⟩ => ⟨S400x1024, .f32⟩
  | .local _ .vmem, ⟨1, _⟩ => ⟨S400x1024, .f32⟩
  | .local _ .vmem, ⟨2, _⟩ => ⟨S400x1024, .f32⟩
  | .local _ .vmem, ⟨3, _⟩ => ⟨S400x1024, .f32⟩
  | .local _ .vmem, ⟨4, _⟩ => ⟨S400x300, .f32⟩
  | .local _ .vmem, ⟨5, _⟩ => ⟨S400x300, .f32⟩
  | .local _ .vmem, ⟨6, _⟩ => ⟨S400x300, .f32⟩
  | .local _ .vmem, ⟨7, _⟩ => ⟨S400x300, .f32⟩
  | .local _ .vmem, ⟨8, _⟩ => ⟨S2048x1024, .f32⟩
  | .local _ .vmem, ⟨9, _⟩ => ⟨S1024, .f32⟩
  | .local _ .vmem, ⟨10, _⟩ => ⟨S600x300, .f32⟩
  | .local _ .vmem, ⟨11, _⟩ => ⟨S300, .f32⟩
  | .local _ .vmem, ⟨12, _⟩ => ⟨S400x1024, .f32⟩
  | .local _ .vmem, ⟨13, _⟩ => ⟨S400x1024, .f32⟩
  | .local _ .vmem, ⟨14, _⟩ => ⟨S400x300, .f32⟩
  | .local _ .vmem, ⟨15, _⟩ => ⟨S400x300, .f32⟩
  | .local _ .vmem, ⟨16, _⟩ => ⟨S400x1024, .f32⟩
  | .local _ .vmem, ⟨17, _⟩ => ⟨S400x1024, .f32⟩
  | .local _ .vmem, ⟨18, _⟩ => ⟨S400x300, .f32⟩
  | .local _ .vmem, ⟨19, _⟩ => ⟨S400x300, .f32⟩
  | .local _ .vmem, ⟨20, _⟩ => ⟨S400x16, .f32⟩
  | .local _ .vmem, ⟨21, _⟩ => ⟨S400x16, .f32⟩
  | .local _ .vmem, ⟨22, _⟩ => ⟨S400x300, .f32⟩
  | .local _ .vmem, ⟨23, _⟩ => ⟨S400x300, .f32⟩
  | .local _ .vmem, ⟨24, _⟩ => ⟨S400x1024, .f32⟩
  | .local _ .vmem, ⟨25, _⟩ => ⟨S400x1024, .f32⟩
  | .local _ .vmem, ⟨26, _⟩ => ⟨S2664x1024, .f32⟩
  | .local _ .vmem, ⟨27, _⟩ => ⟨S1024, .f32⟩
  | .local _ .vmem, ⟨28, _⟩ => ⟨S1024x117, .f32⟩
  | .local _ .vmem, ⟨29, _⟩ => ⟨S117, .f32⟩
  | .local _ .vmem, ⟨30, _⟩ => ⟨S400x117, .f32⟩
  | .local _ .vmem, ⟨31, _⟩ => ⟨S400x117, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S600x300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x300 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2664x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x117 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S117 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S400x117 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S400x1024_S400x1024_0_0 : ∀ a, (![0, 0] : Fin 2 → Nat) a + S400x1024.size a ≤ S400x1024.size a
  h_S400x1024 : 0 < S400x1024.numel
  concatenates_S400x1024_S400x1024_S400x2048_d1 : Shape.Concatenates [S400x1024, S400x1024] S400x2048 1
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S400x1024 : S1x1024.Broadcasts S400x1024
  inb_S400x300_S400x300_0_0 : ∀ a, (![0, 0] : Fin 2 → Nat) a + S400x300.size a ≤ S400x300.size a
  h_S400x300 : 0 < S400x300.numel
  concatenates_S400x300_S400x300_S400x600_d1 : Shape.Concatenates [S400x300, S400x300] S400x600 1
  inb_S600x300_S600x300_0_0 : ∀ a, (![0, 0] : Fin 2 → Nat) a + S600x300.size a ≤ S600x300.size a
  h_S600x300 : 0 < S600x300.numel
  inb_S300_S300_0 : ∀ a, (![0] : Fin 1 → Nat) a + S300.size a ≤ S300.size a
  h_S300 : 0 < S300.numel
  shapeCasts_S300_S1x300 : S300.ShapeCasts S1x300
  broadcasts_S1x300_S400x300 : S1x300.Broadcasts S400x300
  bcast_S_S100000 : S_.BroadcastsInDim S100000 (![] : Fin 0 → Fin S100000.rank)
  bcast_S100000_S100000x1_0 : S100000.BroadcastsInDim S100000x1 (![0] : Fin 1 → Fin S100000x1.rank)
  shapeCasts_S400x1024_S400x1024 : S400x1024.ShapeCasts S400x1024
  shapeCasts_S400x300_S400x300 : S400x300.ShapeCasts S400x300
  inb_S400x16_S400x16_0_0 : ∀ a, (![0, 0] : Fin 2 → Nat) a + S400x16.size a ≤ S400x16.size a
  h_S400x16 : 0 < S400x16.numel
  concatenates_S400x1024_S400x300_S400x16_S400x300_S400x1024_S400x2664_d1 : Shape.Concatenates [S400x1024, S400x300, S400x16, S400x300, S400x1024] S400x2664 1
  inb_S2664x1024_S2664x1024_0_0 : ∀ a, (![0, 0] : Fin 2 → Nat) a + S2664x1024.size a ≤ S2664x1024.size a
  h_S2664x1024 : 0 < S2664x1024.numel
  inb_S1024x117_S1024x117_0_0 : ∀ a, (![0, 0] : Fin 2 → Nat) a + S1024x117.size a ≤ S1024x117.size a
  h_S1024x117 : 0 < S1024x117.numel
  inb_S117_S117_0 : ∀ a, (![0] : Fin 1 → Nat) a + S117.size a ≤ S117.size a
  h_S117 : 0 < S117.numel
  shapeCasts_S117_S1x117 : S117.ShapeCasts S1x117
  broadcasts_S1x117_S400x117 : S1x117.Broadcasts S400x117
  inb_S400x117_S400x117_0_0 : ∀ a, (![0, 0] : Fin 2 → Nat) a + S400x117.size a ≤ S400x117.size a
  h_S400x117 : 0 < S400x117.numel
  dot_S400x2048_S2048x1024_S400x1024_1_0_0_1_n_n_wf : DotDims.WF S400x2048 S2048x1024 S400x1024 [1] [0] [0] [1] [] []
  dot_S400x600_S600x300_S400x300_1_0_0_1_n_n_wf : DotDims.WF S400x600 S600x300 S400x300 [1] [0] [0] [1] [] []
  gather_S20000x1024_S100000x1_S100000x1024_1_0_n_n_0_1_11024_wf : GatherDims.WF S20000x1024 S100000x1 S100000x1024 [1] [0] [] [0] [] 1 ![1, 1024]
  gather_S20000x300_S100000x1_S100000x300_1_0_n_n_0_1_1300_wf : GatherDims.WF S20000x300 S100000x1 S100000x300 [1] [0] [] [0] [] 1 ![1, 300]
  dot_S400x2664_S2664x1024_S400x1024_1_0_0_1_n_n_wf : DotDims.WF S400x2664 S2664x1024 S400x1024 [1] [0] [0] [1] [] []
  dot_S400x1024_S1024x117_S400x117_1_0_0_1_n_n_wf : DotDims.WF S400x1024 S1024x117 S400x117 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1024.size a ≤ S20000x1024.size a
  hwx0_0 : ∀ i : grid0.Coords, EltTy.bits .f32 = 32 ∨ (Rect.block (s := S20000x1024) S400x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1024.size a ≤ S20000x1024.size a
  hwx0_1 : ∀ i : grid0.Coords, EltTy.bits .f32 = 32 ∨ (Rect.block (s := S20000x1024) S400x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x300.size a ≤ S20000x300.size a
  hwx0_2 : ∀ i : grid0.Coords, EltTy.bits .f32 = 32 ∨ (Rect.block (s := S20000x300) S400x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x300.size a ≤ S20000x300.size a
  hwx0_3 : ∀ i : grid0.Coords, EltTy.bits .f32 = 32 ∨ (Rect.block (s := S20000x300) S400x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .f32 = 32 ∨ (Rect.block (s := S2048x1024) S2048x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S600x300.size a ≤ S600x300.size a
  hwx0_6 : ∀ i : grid0.Coords, EltTy.bits .f32 = 32 ∨ (Rect.block (s := S600x300) S600x300.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300.size a ≤ S300.size a
  hwx0_7 : ∀ i : grid0.Coords, EltTy.bits .f32 = 32 ∨ (Rect.block (s := S300) S300.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x1024.size a ≤ S20000x1024.size a
  hwx0_8 : ∀ i : grid0.Coords, EltTy.bits .f32 = 32 ∨ (Rect.block (s := S20000x1024) S400x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x300.size a ≤ S20000x300.size a
  hwx0_9 : ∀ i : grid0.Coords, EltTy.bits .f32 = 32 ∨ (Rect.block (s := S20000x300) S400x300.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x1024.size a ≤ S100000x1024.size a
  hwx1_0 : ∀ i : grid1.Coords, EltTy.bits .f32 = 32 ∨ (Rect.block (s := S100000x1024) S400x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x300.size a ≤ S100000x300.size a
  hwx1_1 : ∀ i : grid1.Coords, EltTy.bits .f32 = 32 ∨ (Rect.block (s := S100000x300) S400x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x16.size a ≤ S100000x16.size a
  hwx1_2 : ∀ i : grid1.Coords, EltTy.bits .f32 = 32 ∨ (Rect.block (s := S100000x16) S400x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x300.size a ≤ S100000x300.size a
  hwx1_3 : ∀ i : grid1.Coords, EltTy.bits .f32 = 32 ∨ (Rect.block (s := S100000x300) S400x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x1024.size a ≤ S100000x1024.size a
  hwx1_4 : ∀ i : grid1.Coords, EltTy.bits .f32 = 32 ∨ (Rect.block (s := S100000x1024) S400x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2664x1024.size a ≤ S2664x1024.size a
  hwx1_5 : ∀ i : grid1.Coords, EltTy.bits .f32 = 32 ∨ (Rect.block (s := S2664x1024) S2664x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x117.size a ≤ S1024x117.size a
  hwx1_7 : ∀ i : grid1.Coords, EltTy.bits .f32 = 32 ∨ (Rect.block (s := S1024x117) S1024x117.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S117.size a ≤ S117.size a
  hwx1_8 : ∀ i : grid1.Coords, EltTy.bits .f32 = 32 ∨ (Rect.block (s := S117) S117.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x117.size a ≤ S100000x117.size a
  hwx1_9 : ∀ i : grid1.Coords, EltTy.bits .f32 = 32 ∨ (Rect.block (s := S100000x117) S400x117.size (cc1_transform_9 i) (hinb1_9 i)).WholeWords (EltTy.packing .f32)

variable [Facts₀]

def dot_S400x2048_S2048x1024_S400x1024_1_0_0_1_n_n : DotDims S400x2048 S2048x1024 S400x1024 where
  lhsContracting := [1]
  rhsContracting := [0]
  lhsNonContracting := [0]
  rhsNonContracting := [1]
  lhsBatch := []
  rhsBatch := []
  wf := dot_S400x2048_S2048x1024_S400x1024_1_0_0_1_n_n_wf
def dot_S400x600_S600x300_S400x300_1_0_0_1_n_n : DotDims S400x600 S600x300 S400x300 where
  lhsContracting := [1]
  rhsContracting := [0]
  lhsNonContracting := [0]
  rhsNonContracting := [1]
  lhsBatch := []
  rhsBatch := []
  wf := dot_S400x600_S600x300_S400x300_1_0_0_1_n_n_wf
def gather_S20000x1024_S100000x1_S100000x1024_1_0_n_n_0_1_11024 : GatherDims S20000x1024 S100000x1 S100000x1024 where
  offsetDims := [1]
  collapsedSliceDims := [0]
  operandBatchingDims := []
  startIndicesBatchingDims := []
  startIndexMap := [0]
  indexVectorDim := 1
  sliceSizes := ![1, 1024]
  wf := gather_S20000x1024_S100000x1_S100000x1024_1_0_n_n_0_1_11024_wf
def gather_S20000x300_S100000x1_S100000x300_1_0_n_n_0_1_1300 : GatherDims S20000x300 S100000x1 S100000x300 where
  offsetDims := [1]
  collapsedSliceDims := [0]
  operandBatchingDims := []
  startIndicesBatchingDims := []
  startIndexMap := [0]
  indexVectorDim := 1
  sliceSizes := ![1, 300]
  wf := gather_S20000x300_S100000x1_S100000x300_1_0_n_n_0_1_1300_wf
def dot_S400x2664_S2664x1024_S400x1024_1_0_0_1_n_n : DotDims S400x2664 S2664x1024 S400x1024 where
  lhsContracting := [1]
  rhsContracting := [0]
  lhsNonContracting := [0]
  rhsNonContracting := [1]
  lhsBatch := []
  rhsBatch := []
  wf := dot_S400x2664_S2664x1024_S400x1024_1_0_0_1_n_n_wf
def dot_S400x1024_S1024x117_S400x117_1_0_0_1_n_n : DotDims S400x1024 S1024x117 S400x117 where
  lhsContracting := [1]
  rhsContracting := [0]
  lhsNonContracting := [0]
  rhsNonContracting := [1]
  lhsBatch := []
  rhsBatch := []
  wf := dot_S400x1024_S1024x117_S400x117_1_0_0_1_n_n_wf

abbrev win0_0 : Pipeline.Window sig grid0 :=
  Pipeline.Window.ofSpec (Memref.whole main_arg0) S400x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S400x300.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S600x300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S300.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S400x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S400x300.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7) S400x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S400x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S400x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S400x300.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S400x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S2664x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S1024x117.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S117.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S400x117.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S20000x1024 : Shape := ⟨2, ![20000, 1024]⟩
abbrev S20000x300 : Shape := ⟨2, ![20000, 300]⟩
abbrev S100000x16 : Shape := ⟨2, ![100000, 16]⟩
abbrev S2048x1024 : Shape := ⟨2, ![2048, 1024]⟩
abbrev S1024 : Shape := ⟨1, ![1024]⟩
abbrev S600x300 : Shape := ⟨2, ![600, 300]⟩
abbrev S300 : Shape := ⟨1, ![300]⟩
abbrev S2664x1024 : Shape := ⟨2, ![2664, 1024]⟩
abbrev S1024x117 : Shape := ⟨2, ![1024, 117]⟩
abbrev S117 : Shape := ⟨1, ![117]⟩
abbrev S100000 : Shape := ⟨1, ![100000]⟩
abbrev S20000x2048 : Shape := ⟨2, ![20000, 2048]⟩
abbrev S1x1024 : Shape := ⟨2, ![1, 1024]⟩
abbrev S_ : Shape := ⟨0, ![]⟩
abbrev S20000x600 : Shape := ⟨2, ![20000, 600]⟩
abbrev S1x300 : Shape := ⟨2, ![1, 300]⟩
abbrev S100000x1 : Shape := ⟨2, ![100000, 1]⟩
abbrev S100000x1024 : Shape := ⟨2, ![100000, 1024]⟩
abbrev S100000x300 : Shape := ⟨2, ![100000, 300]⟩
abbrev S100000x2664 : Shape := ⟨2, ![100000, 2664]⟩
abbrev S100000x117 : Shape := ⟨2, ![100000, 117]⟩
abbrev S1x117 : Shape := ⟨2, ![1, 117]⟩

abbrev nBuf : Space → Nat
  | .hbm => 79
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S20000x1024, .f32⟩
  | .hbm, ⟨2, _⟩ => ⟨S20000x300, .f32⟩
  | .hbm, ⟨3, _⟩ => ⟨S20000x300, .f32⟩
  | .hbm, ⟨4, _⟩ => ⟨S100000x16, .f32⟩
  | .hbm, ⟨5, _⟩ => ⟨S2048x1024, .f32⟩
  | .hbm, ⟨6, _⟩ => ⟨S1024, .f32⟩
  | .hbm, ⟨7, _⟩ => ⟨S600x300, .f32⟩
  | .hbm, ⟨8, _⟩ => ⟨S300, .f32⟩
  | .hbm, ⟨9, _⟩ => ⟨S2664x1024, .f32⟩
  | .hbm, ⟨10, _⟩ => ⟨S1024, .f32⟩
  | .hbm, ⟨11, _⟩ => ⟨S1024x117, .f32⟩
  | .hbm, ⟨12, _⟩ => ⟨S117, .f32⟩
  | .hbm, ⟨13, _⟩ => ⟨S100000, .i32⟩
  | .hbm, ⟨14, _⟩ => ⟨S100000, .i32⟩
  | .hbm, ⟨15, _⟩ => ⟨S20000x2048, .f32⟩
  | .hbm, ⟨16, _⟩ => ⟨S20000x1024, .f32⟩
  | .hbm, ⟨17, _⟩ => ⟨S1x1024, .f32⟩
  | .hbm, ⟨18, _⟩ => ⟨S20000x1024, .f32⟩
  | .hbm, ⟨19, _⟩ => ⟨S20000x1024, .f32⟩
  | .hbm, ⟨20, _⟩ => ⟨S_, .f32⟩
  | .hbm, ⟨21, _⟩ => ⟨S20000x1024, .f32⟩
  | .hbm, ⟨22, _⟩ => ⟨S20000x1024, .f32⟩
  | .hbm, ⟨23, _⟩ => ⟨S20000x600, .f32⟩
  | .hbm, ⟨24, _⟩ => ⟨S20000x300, .f32⟩
  | .hbm, ⟨25, _⟩ => ⟨S1x300, .f32⟩
  | .hbm, ⟨26, _⟩ => ⟨S20000x300, .f32⟩
  | .hbm, ⟨27, _⟩ => ⟨S20000x300, .f32⟩
  | .hbm, ⟨28, _⟩ => ⟨S_, .f32⟩
  | .hbm, ⟨29, _⟩ => ⟨S20000x300, .f32⟩
  | .hbm, ⟨30, _⟩ => ⟨S20000x300, .f32⟩
  | .hbm, ⟨31, _⟩ => ⟨S_, .i32⟩
  | .hbm, ⟨32, _⟩ => ⟨S100000, .i32⟩
  | .hbm, ⟨33, _⟩ => ⟨S100000, .i1⟩
  | .hbm, ⟨34, _⟩ => ⟨S_, .i32⟩
  | .hbm, ⟨35, _⟩ => ⟨S100000, .i32⟩
  | .hbm, ⟨36, _⟩ => ⟨S100000, .i32⟩
  | .hbm, ⟨37, _⟩ => ⟨S100000, .i32⟩
  | .hbm, ⟨38, _⟩ => ⟨S100000x1, .i32⟩
  | .hbm, ⟨39, _⟩ => ⟨S100000x1024, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000x300, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S100000x300, .f32⟩
  | .hbm, ⟨58, _⟩ => ⟨S_, .i32⟩
  | .hbm, ⟨59, _⟩ => ⟨S100000, .i32⟩
  | .hbm, ⟨60, _⟩ => ⟨S100000, .i1⟩
  | .hbm, ⟨61, _⟩ => ⟨S_, .i32⟩
  | .hbm, ⟨62, _⟩ => ⟨S100000, .i32⟩
  | .hbm, ⟨63, _⟩ => ⟨S100000, .i32⟩
  | .hbm, ⟨64, _⟩ => ⟨S100000, .i32⟩
  | .hbm, ⟨65, _⟩ => ⟨S100000x1, .i32⟩
  | .hbm, ⟨66, _⟩ => ⟨S100000x1024, .f32⟩
  | .hbm, ⟨67, _⟩ => ⟨S100000x2664, .f32⟩
  | .hbm, ⟨68, _⟩ => ⟨S100000x1024, .f32⟩
  | .hbm, ⟨69, _⟩ => ⟨S1x1024, .f32⟩
  | .hbm, ⟨70, _⟩ => ⟨S100000x1024, .f32⟩
  | .hbm, ⟨71, _⟩ => ⟨S100000x1024, .f32⟩
  | .hbm, ⟨72, _⟩ => ⟨S_, .f32⟩
  | .hbm, ⟨73, _⟩ => ⟨S100000x1024, .f32⟩
  | .hbm, ⟨74, _⟩ => ⟨S100000x1024, .f32⟩
  | .hbm, ⟨75, _⟩ => ⟨S100000x117, .f32⟩
  | .hbm, ⟨76, _⟩ => ⟨S1x117, .f32⟩
  | .hbm, ⟨77, _⟩ => ⟨S100000x117, .f32⟩
  | .hbm, ⟨78, _⟩ => ⟨S100000x117, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call2_cst : Ref sig .tc := ⟨.hbm, 72, rfl⟩
abbrev main_call2_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]

class Facts₀ : Prop where
  concatenates_S20000x1024_S20000x1024_S20000x2048_d1 : Shape.Concatenates [S20000x1024, S20000x1024] S20000x2048 1
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  concatenates_S20000x300_S20000x300_S20000x600_d1 : Shape.Concatenates [S20000x300, S20000x300] S20000x600 1
  bcast_S300_S1x300_1 : S300.BroadcastsInDim S1x300 (![1] : Fin 1 → Fin S1x300.rank)
  bcast_S1x300_S20000x300_0_1 : S1x300.BroadcastsInDim S20000x300 (![0, 1] : Fin 2 → Fin S20000x300.rank)
  bcast_S_S20000x300 : S_.BroadcastsInDim S20000x300 (![] : Fin 0 → Fin S20000x300.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x1024_S100000x300_S100000x16_S100000x300_S100000x1024_S100000x2664_d1 : Shape.Concatenates [S100000x1024, S100000x300, S100000x16, S100000x300, S100000x1024] S100000x2664 1
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  bcast_S117_S1x117_1 : S117.BroadcastsInDim S1x117 (![1] : Fin 1 → Fin S1x117.rank)
  bcast_S1x117_S100000x117_0_1 : S1x117.BroadcastsInDim S100000x117 (![0, 1] : Fin 2 → Fin S100000x117.rank)
  dot_S20000x2048_S2048x1024_S20000x1024_1_0_0_1_n_n_wf : DotDims.WF S20000x2048 S2048x1024 S20000x1024 [1] [0] [0] [1] [] []
  dot_S20000x600_S600x300_S20000x300_1_0_0_1_n_n_wf : DotDims.WF S20000x600 S600x300 S20000x300 [1] [0] [0] [1] [] []
  gather_S20000x1024_S100000x1_S100000x1024_1_0_n_n_0_1_11024_wf : GatherDims.WF S20000x1024 S100000x1 S100000x1024 [1] [0] [] [0] [] 1 ![1, 1024]
  gather_S20000x300_S100000x1_S100000x300_1_0_n_n_0_1_1300_wf : GatherDims.WF S20000x300 S100000x1 S100000x300 [1] [0] [] [0] [] 1 ![1, 300]
  dot_S100000x2664_S2664x1024_S100000x1024_1_0_0_1_n_n_wf : DotDims.WF S100000x2664 S2664x1024 S100000x1024 [1] [0] [0] [1] [] []
  dot_S100000x1024_S1024x117_S100000x117_1_0_0_1_n_n_wf : DotDims.WF S100000x1024 S1024x117 S100000x117 [1] [0] [0] [1] [] []

variable [Facts₀]

def dot_S20000x2048_S2048x1024_S20000x1024_1_0_0_1_n_n : DotDims S20000x2048 S2048x1024 S20000x1024 where
  lhsContracting := [1]
  rhsContracting := [0]
  lhsNonContracting := [0]
  rhsNonContracting := [1]
  lhsBatch := []
  rhsBatch := []
  wf := dot_S20000x2048_S2048x1024_S20000x1024_1_0_0_1_n_n_wf
def dot_S20000x600_S600x300_S20000x300_1_0_0_1_n_n : DotDims S20000x600 S600x300 S20000x300 where
  lhsContracting := [1]
  rhsContracting := [0]
  lhsNonContracting := [0]
  rhsNonContracting := [1]
  lhsBatch := []
  rhsBatch := []
  wf := dot_S20000x600_S600x300_S20000x300_1_0_0_1_n_n_wf
def gather_S20000x1024_S100000x1_S100000x1024_1_0_n_n_0_1_11024 : GatherDims S20000x1024 S100000x1 S100000x1024 where
  offsetDims := [1]
  collapsedSliceDims := [0]
  operandBatchingDims := []
  startIndicesBatchingDims := []
  startIndexMap := [0]
  indexVectorDim := 1
  sliceSizes := ![1, 1024]
  wf := gather_S20000x1024_S100000x1_S100000x1024_1_0_n_n_0_1_11024_wf
def gather_S20000x300_S100000x1_S100000x300_1_0_n_n_0_1_1300 : GatherDims S20000x300 S100000x1 S100000x300 where
  offsetDims := [1]
  collapsedSliceDims := [0]
  operandBatchingDims := []
  startIndicesBatchingDims := []
  startIndexMap := [0]
  indexVectorDim := 1
  sliceSizes := ![1, 300]
  wf := gather_S20000x300_S100000x1_S100000x300_1_0_n_n_0_1_1300_wf
def dot_S100000x2664_S2664x1024_S100000x1024_1_0_0_1_n_n : DotDims S100000x2664 S2664x1024 S100000x1024 where
  lhsContracting := [1]
  rhsContracting := [0]
  lhsNonContracting := [0]
  rhsNonContracting := [1]
  lhsBatch := []
  rhsBatch := []
  wf := dot_S100000x2664_S2664x1024_S100000x1024_1_0_0_1_n_n_wf
def dot_S100000x1024_S1024x117_S100000x117_1_0_0_1_n_n : DotDims S100000x1024 S1024x117 S100000x117 where
  lhsContracting := [1]
  rhsContracting := [0]
  lhsNonContracting := [0]
  rhsNonContracting := [1]
  lhsBatch := []
  rhsBatch := []
  wf := dot_S100000x1024_S1024x117_S100000x117_1_0_0_1_n_n_wf

class Facts : Prop extends Facts₀ where

variable [Facts]
-- ==== Proof.Spec.lean ====
import proofs.«151339_j44023414784183_1_alg».proof.Proof.Gen.ReferenceIdeal

noncomputable section

/-! # What the program computes, as whole-array functions

A graph network's read-out. Every node gets two updated feature rows, each a dense layer with a rectifier:
`nodeFeat = max (0, [A₀ | A₁] · W + b)` on the visual features (two `20000 × 1024` arrays side by side, a
`2048 × 1024` matrix) and `nodeLang = max (0, [L₀ | L₁] · U + d)` on the word vectors (two `20000 × 300`
arrays, a `600 × 300` matrix). Every edge then reads the updated rows of its two end nodes — a node number
below zero counts from the end (`wrapIdx`) — and its own sixteen spatial features, lays the five rows side by
side (`2664` columns) and sends them through a two-layer classifier:
`edgePred = max (0, [ ⋯ ] · W₁ + b₁) · W₂ + b₂`, a `100000 × 117` array. All sums and products are those of
the extended reals; nothing is rounded. -/

namespace Cert.Spec

open Idealize.ShloMosaic Cert.ReferenceIdeal Cert.ReferenceIdeal.Facts₀

variable {F : FTy → Type} [FloatOps F]

/-- The visual node update: two feature arrays side by side, times the weights, plus the bias row, rectified. -/
def nodeFeat (A₀ A₁ : FVec F S20000x1024 .f32) (W : FVec F S2048x1024 .f32) (b : FVec F S1024 .f32) :
    FVec F S20000x1024 .f32 :=
  maximumf
    (addf
      (Host.dotGeneral dot_S20000x2048_S2048x1024_S20000x1024_1_0_0_1_n_n none
        (concatenate S20000x2048 1 [⟨S20000x1024, A₀⟩, ⟨S20000x1024, A₁⟩] concatenates_S20000x1024_S20000x1024_S20000x2048_d1) W)
      (broadcastInDim S20000x1024 ![0, 1] bcast_S1x1024_S20000x1024_0_1 (broadcastInDim S1x1024 ![1] bcast_S1024_S1x1024_1 b)))
    (broadcastInDim S20000x1024 ![] bcast_S_S20000x1024 (constant S_ .f32 0x00000000#32))

/-- The language node update: the same layer on the word vectors. -/
def nodeLang (L₀ L₁ : FVec F S20000x300 .f32) (U : FVec F S600x300 .f32) (d : FVec F S300 .f32) :
    FVec F S20000x300 .f32 :=
  maximumf
    (addf
      (Host.dotGeneral dot_S20000x600_S600x300_S20000x300_1_0_0_1_n_n none
        (concatenate S20000x600 1 [⟨S20000x300, L₀⟩, ⟨S20000x300, L₁⟩] concatenates_S20000x300_S20000x300_S20000x600_d1) U)
      (broadcastInDim S20000x300 ![0, 1] bcast_S1x300_S20000x300_0_1 (broadcastInDim S1x300 ![1] bcast_S300_S1x300_1 d)))
    (broadcastInDim S20000x300 ![] bcast_S_S20000x300 (constant S_ .f32 0x00000000#32))

/-- An edge's node numbers as gather indices: a negative number has the node count added, and the list becomes a
    one-column table. -/
def wrapIdx (a : (⟨S100000, .i32⟩ : BufTy).Contents (Elt F)) : (⟨S100000x1, .i32⟩ : BufTy).Contents (Elt F) :=
  broadcastInDim S100000x1 ![0] bcast_S100000_S100000x1_0
    (select (cmpi .slt a (broadcastInDim S100000 ![] bcast_S_S100000 (constantI S_ 32 0#32)))
      (addi a (broadcastInDim S100000 ![] bcast_S_S100000 (constantI S_ 32 20000#32))) a)

/-- The rows of a visual feature table an index table names. -/
def rowsFeat (X : FVec F S20000x1024 .f32) (i : (⟨S100000x1, .i32⟩ : BufTy).Contents (Elt F)) : FVec F S100000x1024 .f32 :=
  Host.gather gather_S20000x1024_S100000x1_S100000x1024_1_0_n_n_0_1_11024 X i

/-- The rows of a language feature table an index table names. -/
def rowsLang (X : FVec F S20000x300 .f32) (i : (⟨S100000x1, .i32⟩ : BufTy).Contents (Elt F)) : FVec F S100000x300 .f32 :=
  Host.gather gather_S20000x300_S100000x1_S100000x300_1_0_n_n_0_1_1300 X i

/-- The edge classifier on five per-edge arrays laid side by side. -/
def edgePred (X₀ : FVec F S100000x1024 .f32) (X₁ : FVec F S100000x300 .f32) (X₂ : FVec F S100000x16 .f32)
    (X₃ : FVec F S100000x300 .f32) (X₄ : FVec F S100000x1024 .f32)
    (W₁ : FVec F S2664x1024 .f32) (b₁ : FVec F S1024 .f32) (W₂ : FVec F S1024x117 .f32) (b₂ : FVec F S117 .f32) :
    FVec F S100000x117 .f32 :=
  addf
    (Host.dotGeneral dot_S100000x1024_S1024x117_S100000x117_1_0_0_1_n_n none
      (maximumf
        (addf
          (Host.dotGeneral dot_S100000x2664_S2664x1024_S100000x1024_1_0_0_1_n_n none
            (concatenate S100000x2664 1 [⟨S100000x1024, X₀⟩, ⟨S100000x300, X₁⟩, ⟨S100000x16, X₂⟩, ⟨S100000x300, X₃⟩, ⟨S100000x1024, X₄⟩]
              concatenates_S100000x1024_S100000x300_S100000x16_S100000x300_S100000x1024_S100000x2664_d1) W₁)
          (broadcastInDim S100000x1024 ![0, 1] bcast_S1x1024_S100000x1024_0_1 (broadcastInDim S1x1024 ![1] bcast_S1024_S1x1024_1 b₁)))
        (broadcastInDim S100000x1024 ![] bcast_S_S100000x1024 (constant S_ .f32 0x00000000#32))) W₂)
    (broadcastInDim S100000x117 ![0, 1] bcast_S1x117_S100000x117_0_1 (broadcastInDim S1x117 ![1] bcast_S117_S1x117_1 b₂))

/-- The whole read-out, from the fifteen arguments: destination rows, then the edge's own features, then source rows. -/
def readout (A₀ A₁ : FVec F S20000x1024 .f32) (L₀ L₁ : FVec F S20000x300 .f32) (S : FVec F S100000x16 .f32)
    (W : FVec F S2048x1024 .f32) (b : FVec F S1024 .f32) (U : FVec F S600x300 .f32) (d : FVec F S300 .f32)
    (W₁ : FVec F S2664x1024 .f32) (b₁ : FVec F S1024 .f32) (W₂ : FVec F S1024x117 .f32) (b₂ : FVec F S117 .f32)
    (src dst : (⟨S100000, .i32⟩ : BufTy).Contents (Elt F)) : FVec F S100000x117 .f32 :=
  edgePred (rowsFeat (nodeFeat A₀ A₁ W b) (wrapIdx dst)) (rowsLang (nodeLang L₀ L₁ U d) (wrapIdx dst)) S
    (rowsLang (nodeLang L₀ L₁ U d) (wrapIdx src)) (rowsFeat (nodeFeat A₀ A₁ W b) (wrapIdx src)) W₁ b₁ W₂ b₂

end Cert.Spec

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«151339_j44023414784183_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.Body0.lean ====
import proofs.«151339_j44023414784183_1_alg».proof.Proof.Gen.KernelIdeal.Skeleton
import proofs.«151339_j44023414784183_1_alg».proof.Proof.Spec
import proofs.«151339_j44023414784183_1_alg».proof.Proof.LibRowBlock

noncomputable section

/-! # The node-update body on one block of rows

The node-update kernel works on 400 nodes at a time: it is handed rows `400·t … 400·t + 399` of the four
feature arrays and the whole of both weight matrices and bias rows. A dense layer treats every row by
itself — row `r` of `[A₀ | A₁] · W + b` depends only on row `r` of `A₀` and `A₁` — so what the body computes
from block `t` of the inputs is block `t` of the layer applied to the whole arrays. -/

namespace Cert.KernelIdeal.Rows

open Idealize.ShloMosaic Idealize.ShloMosaic.Layout Cert.KernelIdeal Cert.KernelIdeal.Facts₀

/-- Twenty thousand rows are fifty blocks of four hundred. -/
theorem tiles_n1024 : Tiles S400x1024 S20000x1024 0 50 := by decide
theorem tiles_n300 : Tiles S400x300 S20000x300 0 50 := by decide
theorem tiles_n2048 : Tiles S400x2048 Cert.ReferenceIdeal.S20000x2048 0 50 := by decide
theorem tiles_n600 : Tiles S400x600 Cert.ReferenceIdeal.S20000x600 0 50 := by decide

/-- The visual layer on block `t` of the rows is block `t` of the layer on all rows. -/
theorem feat_rows (t : Fin 50) (A₀ A₁ : FVec Ideal S20000x1024 .f32) (W : FVec Ideal S2048x1024 .f32) (b : FVec Ideal S1024 .f32) :
    Gen.k0_pay1 (F := Ideal) (block S400x1024 S20000x1024 0 50 t A₀ tiles_n1024) (block S400x1024 S20000x1024 0 50 t A₁ tiles_n1024) W b
      = block S400x1024 S20000x1024 0 50 t (Cert.Spec.nodeFeat A₀ A₁ W b) tiles_n1024 := by
  have hcat := Cert.RowBlock.concat2_rows (R := 400) (M := 20000) (T := 50) (N₁ := 1024) (N₂ := 1024) (N := 2048)
    tiles_n1024 tiles_n1024 tiles_n2048 t concatenates_S400x1024_S400x1024_S400x2048_d1
    Cert.ReferenceIdeal.Facts₀.concatenates_S20000x1024_S20000x1024_S20000x2048_d1 A₀ A₁
  have hdot := Cert.RowBlock.dot_rows_trunc (R := 400) (M := 20000) (T := 50) (K := 2048) (N := 1024) (φ₁ := .f32) (φ₂ := .f32)
    bitsLt_bf16_f32 bitsLt_bf16_f32 dot_S400x2048_S2048x1024_S400x1024_1_0_0_1_n_n rfl
    Cert.ReferenceIdeal.dot_S20000x2048_S2048x1024_S20000x1024_1_0_0_1_n_n rfl tiles_n2048 tiles_n1024 none none t
    (concatenate Cert.ReferenceIdeal.S20000x2048 1 [⟨S20000x1024, A₀⟩, ⟨S20000x1024, A₁⟩]
      Cert.ReferenceIdeal.Facts₀.concatenates_S20000x1024_S20000x1024_S20000x2048_d1) W
  have hbias := Cert.RowBlock.bias_rows (R := 400) (M := 20000) (T := 50) (N := 1024) tiles_n1024 t
    shapeCasts_S1024_S1x1024 broadcasts_S1x1024_S400x1024
    Cert.ReferenceIdeal.Facts₀.bcast_S1024_S1x1024_1 Cert.ReferenceIdeal.Facts₀.bcast_S1x1024_S20000x1024_0_1 b
  have hzero := Cert.RowBlock.splat_rows (R := 400) (M := 20000) (T := 50) (N := 1024) tiles_n1024 t
    Cert.ReferenceIdeal.Facts₀.bcast_S_S20000x1024 0x00000000#32
  unfold Gen.k0_pay1 Cert.Spec.nodeFeat
  dsimp only
  rw [hcat, hdot, hbias, hzero]
  rfl

/-- The language layer on block `t` of the rows is block `t` of the layer on all rows. -/
theorem lang_rows (t : Fin 50) (L₀ L₁ : FVec Ideal S20000x300 .f32) (U : FVec Ideal S600x300 .f32) (d : FVec Ideal S300 .f32) :
    Gen.k0_pay2 (F := Ideal) (block S400x300 S20000x300 0 50 t L₀ tiles_n300) (block S400x300 S20000x300 0 50 t L₁ tiles_n300) U d
      = block S400x300 S20000x300 0 50 t (Cert.Spec.nodeLang L₀ L₁ U d) tiles_n300 := by
  have hcat := Cert.RowBlock.concat2_rows (R := 400) (M := 20000) (T := 50) (N₁ := 300) (N₂ := 300) (N := 600)
    tiles_n300 tiles_n300 tiles_n600 t concatenates_S400x300_S400x300_S400x600_d1
    Cert.ReferenceIdeal.Facts₀.concatenates_S20000x300_S20000x300_S20000x600_d1 L₀ L₁
  have hdot := Cert.RowBlock.dot_rows_trunc (R := 400) (M := 20000) (T := 50) (K := 600) (N := 300) (φ₁ := .f32) (φ₂ := .f32)
    bitsLt_bf16_f32 bitsLt_bf16_f32 dot_S400x600_S600x300_S400x300_1_0_0_1_n_n rfl
    Cert.ReferenceIdeal.dot_S20000x600_S600x300_S20000x300_1_0_0_1_n_n rfl tiles_n600 tiles_n300 none none t
    (concatenate Cert.ReferenceIdeal.S20000x600 1 [⟨S20000x300, L₀⟩, ⟨S20000x300, L₁⟩]
      Cert.ReferenceIdeal.Facts₀.concatenates_S20000x300_S20000x300_S20000x600_d1) U
  have hbias := Cert.RowBlock.bias_rows (R := 400) (M := 20000) (T := 50) (N := 300) tiles_n300 t
    shapeCasts_S300_S1x300 broadcasts_S1x300_S400x300
    Cert.ReferenceIdeal.Facts₀.bcast_S300_S1x300_1 Cert.ReferenceIdeal.Facts₀.bcast_S1x300_S20000x300_0_1 d
  have hzero := Cert.RowBlock.splat_rows (R := 400) (M := 20000) (T := 50) (N := 300) tiles_n300 t
    Cert.ReferenceIdeal.Facts₀.bcast_S_S20000x300 0x00000000#32
  unfold Gen.k0_pay2 Cert.Spec.nodeLang
  dsimp only
  rw [hcat, hdot, hbias, hzero]
  rfl

end Cert.KernelIdeal.Rows

end
-- ==== Proof.Region0.lean ====
import proofs.«151339_j44023414784183_1_alg».proof.Proof.Gen.KernelIdeal.Frame
import proofs.«151339_j44023414784183_1_alg».proof.Proof.Body0
import Idealize.ShloMosaic.Lib.Layout
import Idealize.ShloMosaic.Lib.Pipeline.Value

set_option maxRecDepth 16384

noncomputable section

/-! # The node-update region: what its two output arrays hold when it ends

The region runs the node-update body at fifty points. At point `t` the four feature windows hold rows
`400·t … 400·t + 399` of their arrays, the two weight matrices and the two bias rows are held whole, and the two
results are written back to rows `400·t …` of the two output arrays. Since the body's result on a block of
rows is that block of the dense layer on all rows, and the fifty blocks tile the twenty thousand rows, each
output array ends as the layer of the whole input arrays — whatever the buffers held when the region was
entered (`V`). -/

namespace Cert.KernelIdeal.Rows

open Idealize.ShloMosaic Idealize.ShloMosaic.TcCoe Idealize.ShloMosaic.Layout Idealize.SL.Sem
open Cert.KernelIdeal Cert.KernelIdeal.Gen
open Idealize.ShloMosaic.Pipeline (Dat)

/-- A grid point of the region as a block number. -/
def pt0 (t : Fin cfg0.N) : Fin 50 := ⟨t.val, lt_of_lt_of_eq t.isLt N_0⟩

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the six row windows sit at block `(t, 0)`, the four whole
    windows at block zero. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-! ## A window's block, read off an array, is a block of rows of the array (or the array itself) -/

theorem read0_0 (t : Fin cfg0.N) (X : S20000x1024.Idx → Elt Ideal .f32) :
    ((cfg0.win 0).blk t).view.read (Elt Ideal) X = block S400x1024 S20000x1024 0 50 (pt0 t) X tiles_n1024 := by
  have e := idx0 t
  have e0 : win0_0.index t (0 : Fin 2) = t.val := (e.1).1
  have e1 : win0_0.index t (1 : Fin 2) = 0 := (e.1).2
  funext y
  show X (((cfg0.win 0).blk t).view.emb y) = X (tiles_n1024.idx (pt0 t) y)
  refine congrArg X ?_
  funext a; apply Fin.ext
  match a with
  | ⟨0, _⟩ => show win0_0.index t (0 : Fin 2) * 400 + 1 * (y 0).val = t.val * 400 + (y 0).val; rw [e0]; omega
  | ⟨1, _⟩ => show win0_0.index t (1 : Fin 2) * 1024 + 1 * (y 1).val = (y 1).val; rw [e1]; omega

theorem read0_1 (t : Fin cfg0.N) (X : S20000x1024.Idx → Elt Ideal .f32) :
    ((cfg0.win 1).blk t).view.read (Elt Ideal) X = block S400x1024 S20000x1024 0 50 (pt0 t) X tiles_n1024 := by
  have e := idx0 t
  have e0 : win0_1.index t (0 : Fin 2) = t.val := (e.2.1).1
  have e1 : win0_1.index t (1 : Fin 2) = 0 := (e.2.1).2
  funext y
  show X (((cfg0.win 1).blk t).view.emb y) = X (tiles_n1024.idx (pt0 t) y)
  refine congrArg X ?_
  funext a; apply Fin.ext
  match a with
  | ⟨0, _⟩ => show win0_1.index t (0 : Fin 2) * 400 + 1 * (y 0).val = t.val * 400 + (y 0).val; rw [e0]; omega
  | ⟨1, _⟩ => show win0_1.index t (1 : Fin 2) * 1024 + 1 * (y 1).val = (y 1).val; rw [e1]; omega

theorem read0_2 (t : Fin cfg0.N) (X : S20000x300.Idx → Elt Ideal .f32) :
    ((cfg0.win 2).blk t).view.read (Elt Ideal) X = block S400x300 S20000x300 0 50 (pt0 t) X tiles_n300 := by
  have e := idx0 t
  have e0 : win0_2.index t (0 : Fin 2) = t.val := (e.2.2.1).1
  have e1 : win0_2.index t (1 : Fin 2) = 0 := (e.2.2.1).2
  funext y
  show X (((cfg0.win 2).blk t).view.emb y) = X (tiles_n300.idx (pt0 t) y)
  refine congrArg X ?_
  funext a; apply Fin.ext
  match a with
  | ⟨0, _⟩ => show win0_2.index t (0 : Fin 2) * 400 + 1 * (y 0).val = t.val * 400 + (y 0).val; rw [e0]; omega
  | ⟨1, _⟩ => show win0_2.index t (1 : Fin 2) * 300 + 1 * (y 1).val = (y 1).val; rw [e1]; omega

theorem read0_3 (t : Fin cfg0.N) (X : S20000x300.Idx → Elt Ideal .f32) :
    ((cfg0.win 3).blk t).view.read (Elt Ideal) X = block S400x300 S20000x300 0 50 (pt0 t) X tiles_n300 := by
  have e := idx0 t
  have e0 : win0_3.index t (0 : Fin 2) = t.val := (e.2.2.2.1).1
  have e1 : win0_3.index t (1 : Fin 2) = 0 := (e.2.2.2.1).2
  funext y
  show X (((cfg0.win 3).blk t).view.emb y) = X (tiles_n300.idx (pt0 t) y)
  refine congrArg X ?_
  funext a; apply Fin.ext
  match a with
  | ⟨0, _⟩ => show win0_3.index t (0 : Fin 2) * 400 + 1 * (y 0).val = t.val * 400 + (y 0).val; rw [e0]; omega
  | ⟨1, _⟩ => show win0_3.index t (1 : Fin 2) * 300 + 1 * (y 1).val = (y 1).val; rw [e1]; omega

theorem read0_8 (t : Fin cfg0.N) (X : S20000x1024.Idx → Elt Ideal .f32) :
    ((cfg0.win 8).blk t).view.read (Elt Ideal) X = block S400x1024 S20000x1024 0 50 (pt0 t) X tiles_n1024 := by
  have e := idx0 t
  have e0 : win0_8.index t (0 : Fin 2) = t.val := (e.2.2.2.2.2.2.2.2.1).1
  have e1 : win0_8.index t (1 : Fin 2) = 0 := (e.2.2.2.2.2.2.2.2.1).2
  funext y
  show X (((cfg0.win 8).blk t).view.emb y) = X (tiles_n1024.idx (pt0 t) y)
  refine congrArg X ?_
  funext a; apply Fin.ext
  match a with
  | ⟨0, _⟩ => show win0_8.index t (0 : Fin 2) * 400 + 1 * (y 0).val = t.val * 400 + (y 0).val; rw [e0]; omega
  | ⟨1, _⟩ => show win0_8.index t (1 : Fin 2) * 1024 + 1 * (y 1).val = (y 1).val; rw [e1]; omega

theorem read0_9 (t : Fin cfg0.N) (X : S20000x300.Idx → Elt Ideal .f32) :
    ((cfg0.win 9).blk t).view.read (Elt Ideal) X = block S400x300 S20000x300 0 50 (pt0 t) X tiles_n300 := by
  have e := idx0 t
  have e0 : win0_9.index t (0 : Fin 2) = t.val := (e.2.2.2.2.2.2.2.2.2).1
  have e1 : win0_9.index t (1 : Fin 2) = 0 := (e.2.2.2.2.2.2.2.2.2).2
  funext y
  show X (((cfg0.win 9).blk t).view.emb y) = X (tiles_n300.idx (pt0 t) y)
  refine congrArg X ?_
  funext a; apply Fin.ext
  match a with
  | ⟨0, _⟩ => show win0_9.index t (0 : Fin 2) * 400 + 1 * (y 0).val = t.val * 400 + (y 0).val; rw [e0]; omega
  | ⟨1, _⟩ => show win0_9.index t (1 : Fin 2) * 300 + 1 * (y 1).val = (y 1).val; rw [e1]; omega

theorem read0_4 (t : Fin cfg0.N) (X : S2048x1024.Idx → Elt Ideal .f32) :
    ((cfg0.win 4).blk t).view.read (Elt Ideal) X = X := by
  have e := idx0 t
  have e0 : win0_4.index t (0 : Fin 2) = 0 := (e.2.2.2.2.1).1
  have e1 : win0_4.index t (1 : Fin 2) = 0 := (e.2.2.2.2.1).2
  funext y
  show X (((cfg0.win 4).blk t).view.emb y) = X y
  refine congrArg X ?_
  funext a; apply Fin.ext
  match a with
  | ⟨0, _⟩ => show win0_4.index t (0 : Fin 2) * 2048 + 1 * (y 0).val = (y 0).val; rw [e0]; omega
  | ⟨1, _⟩ => show win0_4.index t (1 : Fin 2) * 1024 + 1 * (y 1).val = (y 1).val; rw [e1]; omega

theorem read0_6 (t : Fin cfg0.N) (X : S600x300.Idx → Elt Ideal .f32) :
    ((cfg0.win 6).blk t).view.read (Elt Ideal) X = X := by
  have e := idx0 t
  have e0 : win0_6.index t (0 : Fin 2) = 0 := (e.2.2.2.2.2.2.1).1
  have e1 : win0_6.index t (1 : Fin 2) = 0 := (e.2.2.2.2.2.2.1).2
  funext y
  show X (((cfg0.win 6).blk t).view.emb y) = X y
  refine congrArg X ?_
  funext a; apply Fin.ext
  match a with
  | ⟨0, _⟩ => show win0_6.index t (0 : Fin 2) * 600 + 1 * (y 0).val = (y 0).val; rw [e0]; omega
  | ⟨1, _⟩ => show win0_6.index t (1 : Fin 2) * 300 + 1 * (y 1).val = (y 1).val; rw [e1]; omega

theorem read0_5 (t : Fin cfg0.N) (X : S1024.Idx → Elt Ideal .f32) :
    ((cfg0.win 5).blk t).view.read (Elt Ideal) X = X := by
  have e := idx0 t
  have e0 : win0_5.index t (0 : Fin 1) = 0 := e.2.2.2.2.2.1
  funext y
  show X (((cfg0.win 5).blk t).view.emb y) = X y
  refine congrArg X ?_
  funext a; apply Fin.ext
  match a with
  | ⟨0, _⟩ => show win0_5.index t (0 : Fin 1) * 1024 + 1 * (y 0).val = (y 0).val; rw [e0]; omega

theorem read0_7 (t : Fin cfg0.N) (X : S300.Idx → Elt Ideal .f32) :
    ((cfg0.win 7).blk t).view.read (Elt Ideal) X = X := by
  have e := idx0 t
  have e0 : win0_7.index t (0 : Fin 1) = 0 := e.2.2.2.2.2.2.2.1
  funext y
  show X (((cfg0.win 7).blk t).view.emb y) = X y
  refine congrArg X ?_
  funext a; apply Fin.ext
  match a with
  | ⟨0, _⟩ => show win0_7.index t (0 : Fin 1) * 300 + 1 * (y 0).val = (y 0).val; rw [e0]; omega

/-! ## What a point writes back, and the cover -/

section
variable (V : (c : Dev nD) → (b : Ref sig .tc) → Buf (Elt Ideal) ((c : Thread nD τ).loc b))

/-- Point `t` writes back, to the visual output, block `t` of the visual layer of the arrays as entered. -/
theorem flushed0_8 (c : Dev nD) (t : Fin cfg0.N) :
    (dat0 V c).flushed 8 t = ((cfg0.win 8).blk t).view.read (Elt Ideal)
      (Cert.Spec.nodeFeat (F := Ideal) (V c main_arg0) (V c main_arg1) (V c main_arg5) (V c main_arg6)) := by
  show (cfg0.win 8).cut (grid0.coords t) ((dat0 V c).after 8 t) = _
  rw [after0_8, read0_8]
  unfold out0_8
  rw [View.canon_unit_zero hz2]
  simp only [View.ld_unit_zero (S := S400x1024) hz2, View.ld_unit_zero (S := S2048x1024) hz2, View.ld_unit_zero (S := S1024) hz1]
  unfold iblk0
  rw [read0_0, read0_1, read0_4, read0_5]
  exact feat_rows (pt0 t) _ _ _ _

/-- Point `t` writes back, to the language output, block `t` of the language layer of the arrays as entered. -/
theorem flushed0_9 (c : Dev nD) (t : Fin cfg0.N) :
    (dat0 V c).flushed 9 t = ((cfg0.win 9).blk t).view.read (Elt Ideal)
      (Cert.Spec.nodeLang (F := Ideal) (V c main_arg2) (V c main_arg3) (V c main_arg7) (V c main_arg8)) := by
  show (cfg0.win 9).cut (grid0.coords t) ((dat0 V c).after 9 t) = _
  rw [after0_9, read0_9]
  unfold out0_9
  rw [View.canon_unit_zero hz2]
  simp only [View.ld_unit_zero (S := S400x300) hz2, View.ld_unit_zero (S := S600x300) hz2, View.ld_unit_zero (S := S300) hz1]
  unfold iblk0
  rw [read0_2, read0_3, read0_6, read0_7]
  exact lang_rows (pt0 t) _ _ _ _

end

/-- An index of the visual output is in point `t`'s block iff each coordinate is in the block's range. -/
theorem mem_blk0_8 (t : Fin cfg0.N) (i : S20000x1024.Idx) :
    i ∈ ((cfg0.win 8).blk t).view.set ↔ ∀ a : Fin 2, win0_8.index t a * S400x1024.size a ≤ (i a).val ∧ (i a).val < win0_8.index t a * S400x1024.size a + S400x1024.size a := by
  show i ∈ ((View.whole main_v0_0).slice (win0_8.rect t)).set ↔ _
  rw [View.set_slice_whole, Rect.mem_set_unit]
  exact Iff.rfl

theorem mem_blk0_9 (t : Fin cfg0.N) (i : S20000x300.Idx) :
    i ∈ ((cfg0.win 9).blk t).view.set ↔ ∀ a : Fin 2, win0_9.index t a * S400x300.size a ≤ (i a).val ∧ (i a).val < win0_9.index t a * S400x300.size a + S400x300.size a := by
  show i ∈ ((View.whole main_v0_1).slice (win0_9.rect t)).set ↔ _
  rw [View.set_slice_whole, Rect.mem_set_unit]
  exact Iff.rfl

/-- Row `r` of the visual output is written by point `r / 400`. -/
theorem cover0_8 (i : S20000x1024.Idx) : ∃ t : Fin cfg0.N, (cfg0.win 8).flush t = true ∧ i ∈ ((cfg0.win 8).blk t).view.set := by
  have hi0 : (i 0).val < 20000 := (i 0).isLt
  have hi1 : (i 1).val < 1024 := (i 1).isLt
  have hlt : (i 0).val / 400 < cfg0.N := by rw [show cfg0.N = 50 from N_0]; omega
  refine ⟨⟨(i 0).val / 400, hlt⟩, flush0_8 _, ?_⟩
  have e := idx0 ⟨(i 0).val / 400, hlt⟩
  have e0 : win0_8.index ⟨(i 0).val / 400, hlt⟩ (0 : Fin 2) = (i 0).val / 400 := (e.2.2.2.2.2.2.2.2.1).1
  have e1 : win0_8.index ⟨(i 0).val / 400, hlt⟩ (1 : Fin 2) = 0 := (e.2.2.2.2.2.2.2.2.1).2
  rw [mem_blk0_8]
  intro a
  match a with
  | ⟨0, _⟩ => show win0_8.index ⟨(i 0).val / 400, hlt⟩ (0 : Fin 2) * 400 ≤ (i 0).val ∧ (i 0).val < win0_8.index ⟨(i 0).val / 400, hlt⟩ (0 : Fin 2) * 400 + 400; rw [e0]; omega
  | ⟨1, _⟩ => show win0_8.index ⟨(i 0).val / 400, hlt⟩ (1 : Fin 2) * 1024 ≤ (i 1).val ∧ (i 1).val < win0_8.index ⟨(i 0).val / 400, hlt⟩ (1 : Fin 2) * 1024 + 1024; rw [e1]; omega

/-- Row `r` of the language output is written by point `r / 400`. -/
theorem cover0_9 (i : S20000x300.Idx) : ∃ t : Fin cfg0.N, (cfg0.win 9).flush t = true ∧ i ∈ ((cfg0.win 9).blk t).view.set := by
  have hi0 : (i 0).val < 20000 := (i 0).isLt
  have hi1 : (i 1).val < 300 := (i 1).isLt
  have hlt : (i 0).val / 400 < cfg0.N := by rw [show cfg0.N = 50 from N_0]; omega
  refine ⟨⟨(i 0).val / 400, hlt⟩, flush0_9 _, ?_⟩
  have e := idx0 ⟨(i 0).val / 400, hlt⟩
  have e0 : win0_9.index ⟨(i 0).val / 400, hlt⟩ (0 : Fin 2) = (i 0).val / 400 := (e.2.2.2.2.2.2.2.2.2).1
  have e1 : win0_9.index ⟨(i 0).val / 400, hlt⟩ (1 : Fin 2) = 0 := (e.2.2.2.2.2.2.2.2.2).2
  rw [mem_blk0_9]
  intro a
  match a with
  | ⟨0, _⟩ => show win0_9.index ⟨(i 0).val / 400, hlt⟩ (0 : Fin 2) * 400 ≤ (i 0).val ∧ (i 0).val < win0_9.index ⟨(i 0).val / 400, hlt⟩ (0 : Fin 2) * 400 + 400; rw [e0]; omega
  | ⟨1, _⟩ => show win0_9.index ⟨(i 0).val / 400, hlt⟩ (1 : Fin 2) * 300 ≤ (i 1).val ∧ (i 1).val < win0_9.index ⟨(i 0).val / 400, hlt⟩ (1 : Fin 2) * 300 + 300; rw [e1]; omega

/-! ## The output arrays after the region -/

section
variable (V : (c : Dev nD) → (b : Ref sig .tc) → Buf (Elt Ideal) ((c : Thread nD τ).loc b))

/-- The visual output array ends as the visual layer of the input arrays as entered. -/
theorem final0_8 (c : Dev nD) :
    (dat0 V c).arrAt 8 cfg0.N = Cert.Spec.nodeFeat (F := Ideal) (V c main_arg0) (V c main_arg1) (V c main_arg5) (V c main_arg6) :=
  (dat0 V c).arrAt_eq_of_cover 8 _ (fun t _ => flushed0_8 V c t) cover0_8

/-- The language output array ends as the language layer of the input arrays as entered. -/
theorem final0_9 (c : Dev nD) :
    (dat0 V c).arrAt 9 cfg0.N = Cert.Spec.nodeLang (F := Ideal) (V c main_arg2) (V c main_arg3) (V c main_arg7) (V c main_arg8) :=
  (dat0 V c).arrAt_eq_of_cover 9 _ (fun t _ => flushed0_9 V c t) cover0_9

end

end Cert.KernelIdeal.Rows

end
-- ==== Proof.LibConcat5Rows.lean ====
import Idealize.ShloMosaic.Lib.ValueIdx
import Idealize.ShloMosaic.Lib.Layout
import Idealize.ShloMosaic.Lib.Pipeline.Value

noncomputable section

/-! # Five arrays side by side, cut into blocks of rows

Five two-axis arrays with the same `M = T · R` rows are laid side by side along the columns. Rows
`t·R … t·R + R − 1` of the joined array are the five arrays' own rows `t·R …` laid side by side: column `q`
of the joined array lies in exactly one of the five, at the same offset whether one looks at the whole
arrays or at their row blocks, and a row block only shifts the row. -/

namespace Cert.RowBlock

open Idealize.ShloMosaic Idealize.ShloMosaic.ValueIdx Idealize.ShloMosaic.Layout

variable {R M T : ℕ} {α : Type}

/-- The row block of a five-piece concatenation along the columns is the concatenation of the five row blocks. -/
theorem concat5_rows {N₁ N₂ N₃ N₄ N₅ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T)
    (h₅ : Tiles ⟨2, ![R, N₅]⟩ ⟨2, ![M, N₅]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩, ⟨2, ![R, N₅]⟩] ⟨2, ![R, N]⟩ 1)
    (hc' : Shape.Concatenates [(⟨2, ![M, N₁]⟩ : Shape), ⟨2, ![M, N₂]⟩, ⟨2, ![M, N₃]⟩, ⟨2, ![M, N₄]⟩, ⟨2, ![M, N₅]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) (E : (⟨2, ![M, N₅]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩, ⟨⟨2, ![R, N₅]⟩, block ⟨2, ![R, N₅]⟩ ⟨2, ![M, N₅]⟩ 0 T t E h₅⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩, ⟨⟨2, ![M, N₅]⟩, E⟩] hc') hN := by
  funext y
  obtain ⟨p, q, rfl⟩ : ∃ (p : Fin R) (q : Fin N), y = ix2 p q := ⟨y 0, y 1, eq_ix2 y⟩
  have hsum : N₁ + (N₂ + (N₃ + (N₄ + (N₅ + (0))))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩, ⟨⟨2, ![R, N₅]⟩, block ⟨2, ![R, N₅]⟩ ⟨2, ![M, N₅]⟩ 0 T t E h₅⟩] hc (ix2 p q) 0 (by show 0 < 5; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩, ⟨⟨2, ![M, N₅]⟩, E⟩] hc' (hN.idx t (ix2 p q)) 0 (by show 0 < 5; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩, ⟨⟨2, ![R, N₅]⟩, block ⟨2, ![R, N₅]⟩ ⟨2, ![M, N₅]⟩ 0 T t E h₅⟩] hc (ix2 p q) 1 (by show 1 < 5; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩, ⟨⟨2, ![M, N₅]⟩, E⟩] hc' (hN.idx t (ix2 p q)) 1 (by show 1 < 5; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩, ⟨⟨2, ![R, N₅]⟩, block ⟨2, ![R, N₅]⟩ ⟨2, ![M, N₅]⟩ 0 T t E h₅⟩] hc (ix2 p q) 2 (by show 2 < 5; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩, ⟨⟨2, ![M, N₅]⟩, E⟩] hc' (hN.idx t (ix2 p q)) 2 (by show 2 < 5; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  by_cases hc3 : q.val < N₁ + N₂ + N₃ + N₄
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩, ⟨⟨2, ![R, N₅]⟩, block ⟨2, ![R, N₅]⟩ ⟨2, ![M, N₅]⟩ 0 T t E h₅⟩] hc (ix2 p q) 3 (by show 3 < 5; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩, ⟨⟨2, ![M, N₅]⟩, E⟩] hc' (hN.idx t (ix2 p q)) 3 (by show 3 < 5; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb
  · have c4 : q.val - (N₁ + N₂ + N₃ + N₄) < N₅ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩, ⟨⟨2, ![R, N₅]⟩, block ⟨2, ![R, N₅]⟩ ⟨2, ![M, N₅]⟩ 0 T t E h₅⟩] hc (ix2 p q) 4 (by show 4 < 5; omega) ⟨2, ![R, N₅]⟩ _ rfl rfl (N₁ + N₂ + N₃ + N₄) (by simp [List.take, List.map, List.sum_cons]; try omega) (ix2 p ⟨q.val - (N₁ + N₂ + N₃ + N₄), c4⟩) (fun b hb => ?_) (by show N₁ + N₂ + N₃ + N₄ + (q.val - (N₁ + N₂ + N₃ + N₄)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩, ⟨⟨2, ![M, N₅]⟩, E⟩] hc' (hN.idx t (ix2 p q)) 4 (by show 4 < 5; omega) ⟨2, ![M, N₅]⟩ E rfl rfl (N₁ + N₂ + N₃ + N₄) (by simp [List.take, List.map, List.sum_cons]; try omega) (h₅.idx t (ix2 p ⟨q.val - (N₁ + N₂ + N₃ + N₄), c4⟩)) (fun b hb => ?_) (by show N₁ + N₂ + N₃ + N₄ + (q.val - (N₁ + N₂ + N₃ + N₄)) = q.val; omega))
    match b with
    | ⟨0, _⟩ => rfl
    | ⟨1, _⟩ => exact absurd rfl hb

end Cert.RowBlock

end
-- ==== Proof.Body1.lean ====
import proofs.«151339_j44023414784183_1_alg».proof.Proof.Gen.KernelIdeal.Skeleton
import proofs.«151339_j44023414784183_1_alg».proof.Proof.Spec
import proofs.«151339_j44023414784183_1_alg».proof.Proof.LibRowBlock
import proofs.«151339_j44023414784183_1_alg».proof.Proof.LibConcat5Rows

noncomputable section

/-! # The edge read-out body on one block of rows

The edge kernel works on 400 edges at a time: it is handed rows `400·t … 400·t + 399` of the five per-edge
arrays (the gathered node rows and the edge's own features) and the whole of the classifier's two weight
matrices and bias rows. Both layers treat every row by itself: row `r` of the hidden layer
`max (0, [X₀ | X₁ | X₂ | X₃ | X₄] · W₁ + b₁)` depends only on row `r` of the five arrays, and row `r` of the
logits only on row `r` of the hidden layer. So the body's result on block `t` of the inputs is block `t` of
the classifier applied to the whole arrays. -/

namespace Cert.KernelIdeal.Rows

open Idealize.ShloMosaic Idealize.ShloMosaic.Layout Cert.KernelIdeal Cert.KernelIdeal.Facts₀

/-- A hundred thousand rows are two hundred and fifty blocks of four hundred. -/
theorem tiles_e1024 : Tiles S400x1024 S100000x1024 0 250 := by decide
theorem tiles_e300 : Tiles S400x300 S100000x300 0 250 := by decide
theorem tiles_e16 : Tiles S400x16 S100000x16 0 250 := by decide
theorem tiles_e2664 : Tiles S400x2664 Cert.ReferenceIdeal.S100000x2664 0 250 := by decide
theorem tiles_e117 : Tiles S400x117 S100000x117 0 250 := by decide

/-- The classifier on block `t` of the rows is block `t` of the classifier on all rows. -/
theorem pred_rows (t : Fin 250) (X₀ : FVec Ideal S100000x1024 .f32) (X₁ : FVec Ideal S100000x300 .f32) (X₂ : FVec Ideal S100000x16 .f32)
    (X₃ : FVec Ideal S100000x300 .f32) (X₄ : FVec Ideal S100000x1024 .f32)
    (W₁ : FVec Ideal S2664x1024 .f32) (b₁ : FVec Ideal S1024 .f32) (W₂ : FVec Ideal S1024x117 .f32) (b₂ : FVec Ideal S117 .f32) :
    Gen.k1_pay1 (F := Ideal) (block S400x1024 S100000x1024 0 250 t X₀ tiles_e1024) (block S400x300 S100000x300 0 250 t X₁ tiles_e300)
        (block S400x16 S100000x16 0 250 t X₂ tiles_e16) (block S400x300 S100000x300 0 250 t X₃ tiles_e300)
        (block S400x1024 S100000x1024 0 250 t X₄ tiles_e1024) W₁ b₁ W₂ b₂
      = block S400x117 S100000x117 0 250 t (Cert.Spec.edgePred X₀ X₁ X₂ X₃ X₄ W₁ b₁ W₂ b₂) tiles_e117 := by
  have hcat := Cert.RowBlock.concat5_rows (R := 400) (M := 100000) (T := 250) (N₁ := 1024) (N₂ := 300) (N₃ := 16) (N₄ := 300) (N₅ := 1024) (N := 2664)
    tiles_e1024 tiles_e300 tiles_e16 tiles_e300 tiles_e1024 tiles_e2664 t
    concatenates_S400x1024_S400x300_S400x16_S400x300_S400x1024_S400x2664_d1
    Cert.ReferenceIdeal.Facts₀.concatenates_S100000x1024_S100000x300_S100000x16_S100000x300_S100000x1024_S100000x2664_d1 X₀ X₁ X₂ X₃ X₄
  have hdot₁ := Cert.RowBlock.dot_rows_trunc (R := 400) (M := 100000) (T := 250) (K := 2664) (N := 1024) (φ₁ := .f32) (φ₂ := .f32)
    bitsLt_bf16_f32 bitsLt_bf16_f32 dot_S400x2664_S2664x1024_S400x1024_1_0_0_1_n_n rfl
    Cert.ReferenceIdeal.dot_S100000x2664_S2664x1024_S100000x1024_1_0_0_1_n_n rfl tiles_e2664 tiles_e1024 none none t
    (concatenate Cert.ReferenceIdeal.S100000x2664 1 [⟨S100000x1024, X₀⟩, ⟨S100000x300, X₁⟩, ⟨S100000x16, X₂⟩, ⟨S100000x300, X₃⟩, ⟨S100000x1024, X₄⟩]
      Cert.ReferenceIdeal.Facts₀.concatenates_S100000x1024_S100000x300_S100000x16_S100000x300_S100000x1024_S100000x2664_d1) W₁
  have hbias₁ := Cert.RowBlock.bias_rows (R := 400) (M := 100000) (T := 250) (N := 1024) tiles_e1024 t
    shapeCasts_S1024_S1x1024 broadcasts_S1x1024_S400x1024
    Cert.ReferenceIdeal.Facts₀.bcast_S1024_S1x1024_1 Cert.ReferenceIdeal.Facts₀.bcast_S1x1024_S100000x1024_0_1 b₁
  have hzero := Cert.RowBlock.splat_rows (R := 400) (M := 100000) (T := 250) (N := 1024) tiles_e1024 t
    Cert.ReferenceIdeal.Facts₀.bcast_S_S100000x1024 0x00000000#32
  have hdot₂ := fun H : FVec Ideal S100000x1024 .f32 =>
    Cert.RowBlock.dot_rows_trunc (R := 400) (M := 100000) (T := 250) (K := 1024) (N := 117) (φ₁ := .f32) (φ₂ := .f32)
      bitsLt_bf16_f32 bitsLt_bf16_f32 dot_S400x1024_S1024x117_S400x117_1_0_0_1_n_n rfl
      Cert.ReferenceIdeal.dot_S100000x1024_S1024x117_S100000x117_1_0_0_1_n_n rfl tiles_e1024 tiles_e117 none none t H W₂
  have hbias₂ := Cert.RowBlock.bias_rows (R := 400) (M := 100000) (T := 250) (N := 117) tiles_e117 t
    shapeCasts_S117_S1x117 broadcasts_S1x117_S400x117
    Cert.ReferenceIdeal.Facts₀.bcast_S117_S1x117_1 Cert.ReferenceIdeal.Facts₀.bcast_S1x117_S100000x117_0_1 b₂
  unfold Gen.k1_pay1 Cert.Spec.edgePred
  dsimp only
  rw [shapeCast_self (block S400x1024 S100000x1024 0 250 t X₀ tiles_e1024), shapeCast_self (block S400x300 S100000x300 0 250 t X₁ tiles_e300),
    shapeCast_self (block S400x300 S100000x300 0 250 t X₃ tiles_e300), shapeCast_self (block S400x1024 S100000x1024 0 250 t X₄ tiles_e1024)]
  rw [hcat, hdot₁, hbias₁, hzero, Cert.RowBlock.addf_rows, Cert.RowBlock.maximumf_rows, hdot₂, hbias₂]
  rfl

end Cert.KernelIdeal.Rows

end
-- ==== Proof.Region1.lean ====
import proofs.«151339_j44023414784183_1_alg».proof.Proof.Gen.KernelIdeal.Frame
import proofs.«151339_j44023414784183_1_alg».proof.Proof.Body1
import Idealize.ShloMosaic.Lib.Layout
import Idealize.ShloMosaic.Lib.Pipeline.Value

set_option maxRecDepth 16384

noncomputable section

/-! # The edge read-out region: what its output array holds when it ends

The region runs the edge body at two hundred and fifty points. At point `t` the five per-edge windows hold rows
`400·t … 400·t + 399` of their arrays, the classifier's two weight matrices and two bias rows are held whole, and
the result is written back to rows `400·t …` of the output array. The body's result on a block of rows is that
block of the classifier on all rows, and the blocks tile the hundred thousand rows, so the output array ends as
the classifier of the whole input arrays — whatever the buffers held when the region was entered (`V`). -/

namespace Cert.KernelIdeal.Rows

open Idealize.ShloMosaic Idealize.ShloMosaic.TcCoe Idealize.ShloMosaic.Layout Idealize.SL.Sem
open Cert.KernelIdeal Cert.KernelIdeal.Gen
open Idealize.ShloMosaic.Pipeline (Dat)

/-- A grid point of the region as a block number. -/
def pt1 (t : Fin cfg1.N) : Fin 250 := ⟨t.val, lt_of_lt_of_eq t.isLt N_1⟩

theorem hz2' : (![0, 0] : Fin 2 → Nat) = fun _ => 0 := funext fun a => by fin_cases a <;> rfl
theorem hz1' : (![0] : Fin 1 → Nat) = fun _ => 0 := funext fun a => by fin_cases a <;> rfl

/-- The printed index maps, decided over the grid: the six row windows sit at block `(t, 0)`, the four whole
    windows at block zero. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_9.index t (0 : Fin 2) = t.val ∧ win1_9.index t (1 : Fin 2) = 0) :=
  (by decide +kernel : ∀ t : Fin grid1.N, _)

/-! ## A window's block, read off an array, is a block of rows of the array (or the array itself) -/

theorem read1_0 (t : Fin cfg1.N) (X : S100000x1024.Idx → Elt Ideal .f32) :
    ((cfg1.win 0).blk t).view.read (Elt Ideal) X = block S400x1024 S100000x1024 0 250 (pt1 t) X tiles_e1024 := by
  have e := idx1 t
  have e0 : win1_0.index t (0 : Fin 2) = t.val := (e.1).1
  have e1 : win1_0.index t (1 : Fin 2) = 0 := (e.1).2
  funext y
  show X (((cfg1.win 0).blk t).view.emb y) = X (tiles_e1024.idx (pt1 t) y)
  refine congrArg X ?_
  funext a; apply Fin.ext
  match a with
  | ⟨0, _⟩ => show win1_0.index t (0 : Fin 2) * 400 + 1 * (y 0).val = t.val * 400 + (y 0).val; rw [e0]; omega
  | ⟨1, _⟩ => show win1_0.index t (1 : Fin 2) * 1024 + 1 * (y 1).val = (y 1).val; rw [e1]; omega

theorem read1_1 (t : Fin cfg1.N) (X : S100000x300.Idx → Elt Ideal .f32) :
    ((cfg1.win 1).blk t).view.read (Elt Ideal) X = block S400x300 S100000x300 0 250 (pt1 t) X tiles_e300 := by
  have e := idx1 t
  have e0 : win1_1.index t (0 : Fin 2) = t.val := (e.2.1).1
  have e1 : win1_1.index t (1 : Fin 2) = 0 := (e.2.1).2
  funext y
  show X (((cfg1.win 1).blk t).view.emb y) = X (tiles_e300.idx (pt1 t) y)
  refine congrArg X ?_
  funext a; apply Fin.ext
  match a with
  | ⟨0, _⟩ => show win1_1.index t (0 : Fin 2) * 400 + 1 * (y 0).val = t.val * 400 + (y 0).val; rw [e0]; omega
  | ⟨1, _⟩ => show win1_1.index t (1 : Fin 2) * 300 + 1 * (y 1).val = (y 1).val; rw [e1]; omega

theorem read1_2 (t : Fin cfg1.N) (X : S100000x16.Idx → Elt Ideal .f32) :
    ((cfg1.win 2).blk t).view.read (Elt Ideal) X = block S400x16 S100000x16 0 250 (pt1 t) X tiles_e16 := by
  have e := idx1 t
  have e0 : win1_2.index t (0 : Fin 2) = t.val := (e.2.2.1).1
  have e1 : win1_2.index t (1 : Fin 2) = 0 := (e.2.2.1).2
  funext y
  show X (((cfg1.win 2).blk t).view.emb y) = X (tiles_e16.idx (pt1 t) y)
  refine congrArg X ?_
  funext a; apply Fin.ext
  match a with
  | ⟨0, _⟩ => show win1_2.index t (0 : Fin 2) * 400 + 1 * (y 0).val = t.val * 400 + (y 0).val; rw [e0]; omega
  | ⟨1, _⟩ => show win1_2.index t (1 : Fin 2) * 16 + 1 * (y 1).val = (y 1).val; rw [e1]; omega

theorem read1_3 (t : Fin cfg1.N) (X : S100000x300.Idx → Elt Ideal .f32) :
    ((cfg1.win 3).blk t).view.read (Elt Ideal) X = block S400x300 S100000x300 0 250 (pt1 t) X tiles_e300 := by
  have e := idx1 t
  have e0 : win1_3.index t (0 : Fin 2) = t.val := (e.2.2.2.1).1
  have e1 : win1_3.index t (1 : Fin 2) = 0 := (e.2.2.2.1).2
  funext y
  show X (((cfg1.win 3).blk t).view.emb y) = X (tiles_e300.idx (pt1 t) y)
  refine congrArg X ?_
  funext a; apply Fin.ext
  match a with
  | ⟨0, _⟩ => show win1_3.index t (0 : Fin 2) * 400 + 1 * (y 0).val = t.val * 400 + (y 0).val; rw [e0]; omega
  | ⟨1, _⟩ => show win1_3.index t (1 : Fin 2) * 300 + 1 * (y 1).val = (y 1).val; rw [e1]; omega

theorem read1_4 (t : Fin cfg1.N) (X : S100000x1024.Idx → Elt Ideal .f32) :
    ((cfg1.win 4).blk t).view.read (Elt Ideal) X = block S400x1024 S100000x1024 0 250 (pt1 t) X tiles_e1024 := by
  have e := idx1 t
  have e0 : win1_4.index t (0 : Fin 2) = t.val := (e.2.2.2.2.1).1
  have e1 : win1_4.index t (1 : Fin 2) = 0 := (e.2.2.2.2.1).2
  funext y
  show X (((cfg1.win 4).blk t).view.emb y) = X (tiles_e1024.idx (pt1 t) y)
  refine congrArg X ?_
  funext a; apply Fin.ext
  match a with
  | ⟨0, _⟩ => show win1_4.index t (0 : Fin 2) * 400 + 1 * (y 0).val = t.val * 400 + (y 0).val; rw [e0]; omega
  | ⟨1, _⟩ => show win1_4.index t (1 : Fin 2) * 1024 + 1 * (y 1).val = (y 1).val; rw [e1]; omega

theorem read1_9 (t : Fin cfg1.N) (X : S100000x117.Idx → Elt Ideal .f32) :
    ((cfg1.win 9).blk t).view.read (Elt Ideal) X = block S400x117 S100000x117 0 250 (pt1 t) X tiles_e117 := by
  have e := idx1 t
  have e0 : win1_9.index t (0 : Fin 2) = t.val := (e.2.2.2.2.2.2.2.2.2).1
  have e1 : win1_9.index t (1 : Fin 2) = 0 := (e.2.2.2.2.2.2.2.2.2).2
  funext y
  show X (((cfg1.win 9).blk t).view.emb y) = X (tiles_e117.idx (pt1 t) y)
  refine congrArg X ?_
  funext a; apply Fin.ext
  match a with
  | ⟨0, _⟩ => show win1_9.index t (0 : Fin 2) * 400 + 1 * (y 0).val = t.val * 400 + (y 0).val; rw [e0]; omega
  | ⟨1, _⟩ => show win1_9.index t (1 : Fin 2) * 117 + 1 * (y 1).val = (y 1).val; rw [e1]; omega

theorem read1_5 (t : Fin cfg1.N) (X : S2664x1024.Idx → Elt Ideal .f32) :
    ((cfg1.win 5).blk t).view.read (Elt Ideal) X = X := by
  have e := idx1 t
  have e0 : win1_5.index t (0 : Fin 2) = 0 := (e.2.2.2.2.2.1).1
  have e1 : win1_5.index t (1 : Fin 2) = 0 := (e.2.2.2.2.2.1).2
  funext y
  show X (((cfg1.win 5).blk t).view.emb y) = X y
  refine congrArg X ?_
  funext a; apply Fin.ext
  match a with
  | ⟨0, _⟩ => show win1_5.index t (0 : Fin 2) * 2664 + 1 * (y 0).val = (y 0).val; rw [e0]; omega
  | ⟨1, _⟩ => show win1_5.index t (1 : Fin 2) * 1024 + 1 * (y 1).val = (y 1).val; rw [e1]; omega

theorem read1_7 (t : Fin cfg1.N) (X : S1024x117.Idx → Elt Ideal .f32) :
    ((cfg1.win 7).blk t).view.read (Elt Ideal) X = X := by
  have e := idx1 t
  have e0 : win1_7.index t (0 : Fin 2) = 0 := (e.2.2.2.2.2.2.2.1).1
  have e1 : win1_7.index t (1 : Fin 2) = 0 := (e.2.2.2.2.2.2.2.1).2
  funext y
  show X (((cfg1.win 7).blk t).view.emb y) = X y
  refine congrArg X ?_
  funext a; apply Fin.ext
  match a with
  | ⟨0, _⟩ => show win1_7.index t (0 : Fin 2) * 1024 + 1 * (y 0).val = (y 0).val; rw [e0]; omega
  | ⟨1, _⟩ => show win1_7.index t (1 : Fin 2) * 117 + 1 * (y 1).val = (y 1).val; rw [e1]; omega

theorem read1_6 (t : Fin cfg1.N) (X : S1024.Idx → Elt Ideal .f32) :
    ((cfg1.win 6).blk t).view.read (Elt Ideal) X = X := by
  have e := idx1 t
  have e0 : win1_6.index t (0 : Fin 1) = 0 := e.2.2.2.2.2.2.1
  funext y
  show X (((cfg1.win 6).blk t).view.emb y) = X y
  refine congrArg X ?_
  funext a; apply Fin.ext
  match a with
  | ⟨0, _⟩ => show win1_6.index t (0 : Fin 1) * 1024 + 1 * (y 0).val = (y 0).val; rw [e0]; omega

theorem read1_8 (t : Fin cfg1.N) (X : S117.Idx → Elt Ideal .f32) :
    ((cfg1.win 8).blk t).view.read (Elt Ideal) X = X := by
  have e := idx1 t
  have e0 : win1_8.index t (0 : Fin 1) = 0 := e.2.2.2.2.2.2.2.2.1
  funext y
  show X (((cfg1.win 8).blk t).view.emb y) = X y
  refine congrArg X ?_
  funext a; apply Fin.ext
  match a with
  | ⟨0, _⟩ => show win1_8.index t (0 : Fin 1) * 117 + 1 * (y 0).val = (y 0).val; rw [e0]; omega

/-! ## What a point writes back, the cover, and the output array after the region -/

section
variable (V : (c : Dev nD) → (b : Ref sig .tc) → Buf (Elt Ideal) ((c : Thread nD τ).loc b))

/-- Point `t` writes back block `t` of the classifier of the arrays as entered. -/
theorem flushed1_9 (c : Dev nD) (t : Fin cfg1.N) :
    (dat1 V c).flushed 9 t = ((cfg1.win 9).blk t).view.read (Elt Ideal)
      (Cert.Spec.edgePred (F := Ideal) (V c main_v7) (V c main_v14) (V c main_arg4) (V c main_v28) (V c main_v21)
        (V c main_arg9) (V c main_arg10) (V c main_arg11) (V c main_arg12)) := by
  show (cfg1.win 9).cut (grid1.coords t) ((dat1 V c).after 9 t) = _
  rw [after1_9, read1_9]
  unfold out1_9
  rw [View.canon_unit_zero hz2']
  simp only [View.ld_unit_zero (S := S400x1024) hz2', View.ld_unit_zero (S := S400x300) hz2', View.ld_unit_zero (S := S400x16) hz2',
    View.ld_unit_zero (S := S2664x1024) hz2', View.ld_unit_zero (S := S1024) hz1', View.ld_unit_zero (S := S1024x117) hz2',
    View.ld_unit_zero (S := S117) hz1']
  unfold iblk1
  rw [read1_0, read1_1, read1_2, read1_3, read1_4, read1_5, read1_6, read1_7, read1_8]
  exact pred_rows (pt1 t) _ _ _ _ _ _ _ _ _

end

/-- An index of the output is in point `t`'s block iff each coordinate is in the block's range. -/
theorem mem_blk1_9 (t : Fin cfg1.N) (i : S100000x117.Idx) :
    i ∈ ((cfg1.win 9).blk t).view.set ↔ ∀ a : Fin 2, win1_9.index t a * S400x117.size a ≤ (i a).val ∧ (i a).val < win1_9.index t a * S400x117.size a + S400x117.size a := by
  show i ∈ ((View.whole main_v29).slice (win1_9.rect t)).set ↔ _
  rw [View.set_slice_whole, Rect.mem_set_unit]
  exact Iff.rfl

/-- Row `r` of the output is written by point `r / 400`. -/
theorem cover1_9 (i : S100000x117.Idx) : ∃ t : Fin cfg1.N, (cfg1.win 9).flush t = true ∧ i ∈ ((cfg1.win 9).blk t).view.set := by
  have hi0 : (i 0).val < 100000 := (i 0).isLt
  have hi1 : (i 1).val < 117 := (i 1).isLt
  have hlt : (i 0).val / 400 < cfg1.N := by rw [show cfg1.N = 250 from N_1]; omega
  refine ⟨⟨(i 0).val / 400, hlt⟩, flush1_9 _, ?_⟩
  have e := idx1 ⟨(i 0).val / 400, hlt⟩
  have e0 : win1_9.index ⟨(i 0).val / 400, hlt⟩ (0 : Fin 2) = (i 0).val / 400 := (e.2.2.2.2.2.2.2.2.2).1
  have e1 : win1_9.index ⟨(i 0).val / 400, hlt⟩ (1 : Fin 2) = 0 := (e.2.2.2.2.2.2.2.2.2).2
  rw [mem_blk1_9]
  intro a
  match a with
  | ⟨0, _⟩ => show win1_9.index ⟨(i 0).val / 400, hlt⟩ (0 : Fin 2) * 400 ≤ (i 0).val ∧ (i 0).val < win1_9.index ⟨(i 0).val / 400, hlt⟩ (0 : Fin 2) * 400 + 400; rw [e0]; omega
  | ⟨1, _⟩ => show win1_9.index ⟨(i 0).val / 400, hlt⟩ (1 : Fin 2) * 117 ≤ (i 1).val ∧ (i 1).val < win1_9.index ⟨(i 0).val / 400, hlt⟩ (1 : Fin 2) * 117 + 117; rw [e1]; omega

section
variable (V : (c : Dev nD) → (b : Ref sig .tc) → Buf (Elt Ideal) ((c : Thread nD τ).loc b))

/-- The output array ends as the classifier of the input arrays as entered. -/
theorem final1_9 (c : Dev nD) :
    (dat1 V c).arrAt 9 cfg1.N = Cert.Spec.edgePred (F := Ideal) (V c main_v7) (V c main_v14) (V c main_arg4) (V c main_v28) (V c main_v21)
        (V c main_arg9) (V c main_arg10) (V c main_arg11) (V c main_arg12) :=
  (dat1 V c).arrAt_eq_of_cover 9 _ (fun t _ => flushed1_9 V c t) cover1_9

end

end Cert.KernelIdeal.Rows

end
-- ==== Proof.KValue.lean ====
import proofs.«151339_j44023414784183_1_alg».proof.Proof.Region0
import proofs.«151339_j44023414784183_1_alg».proof.Proof.Region1
import proofs.«151339_j44023414784183_1_alg».proof.Proof.KRun
import Idealize.ShloMosaic.Lib.StableHlo.Run

set_option maxRecDepth 16384

noncomputable section

/-! # The program's result array, from the launch memory

The program is three stretches. The node-update region leaves the two updated feature tables (Region0). The
host stretch between the regions touches no argument; from each table it gathers the rows of every edge's
destination node and of its source node, a negative node number counted from the end — four per-edge arrays.
The edge region then sends those four arrays and the edge's own features through the classifier (Region1).
Composing the three, the result array holds the whole read-out `Spec.readout` of the fifteen arguments as
launched. -/

namespace Cert.KernelIdeal.Rows

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## After the node-update region -/

theorem exit0_feat (c : Dev nD) : W1 m ρ c (Proc.devRef .tc main_v0_0)
    = Cert.Spec.nodeFeat (F := Ideal) (m ((c : Thread nD τ).loc main_arg0)) (m ((c : Thread nD τ).loc main_arg1)) (m ((c : Thread nD τ).loc main_arg5)) (m ((c : Thread nD τ).loc main_arg6)) :=
  (W1_arr m ρ c 8).trans (final0_8 (V0 m ρ) c)

theorem exit0_lang (c : Dev nD) : W1 m ρ c (Proc.devRef .tc main_v0_1)
    = Cert.Spec.nodeLang (F := Ideal) (m ((c : Thread nD τ).loc main_arg2)) (m ((c : Thread nD τ).loc main_arg3)) (m ((c : Thread nD τ).loc main_arg7)) (m ((c : Thread nD τ).loc main_arg8)) :=
  (W1_arr m ρ c 9).trans (final0_9 (V0 m ρ) c)

/-- The region writes no argument it does not stage: the node numbers are as launched. -/
theorem exit0_src (c : Dev nD) : W1 m ρ c (Proc.devRef .tc main_arg13) = (m ((c : Thread nD τ).loc main_arg13)) := W1_of_ne m ρ c main_arg13 (by decide)
theorem exit0_dst (c : Dev nD) : W1 m ρ c (Proc.devRef .tc main_arg14) = (m ((c : Thread nD τ).loc main_arg14)) := W1_of_ne m ρ c main_arg14 (by decide)

/-! ## After the host stretch: the four gathered arrays, and the arguments the edge region reads -/

theorem entry1_featDst (c : Dev nD) : W2 m ρ c (Proc.devRef .tc main_v7)
    = Cert.Spec.rowsFeat (F := Ideal) (W1 m ρ c (Proc.devRef .tc main_v0_0)) (Cert.Spec.wrapIdx (F := Ideal) (W1 m ρ c (Proc.devRef .tc main_arg14))) := by
  show StableHlo.after hostOps1 (W1 m ρ c) (Proc.devRef .tc main_v7) = _
  after_results
  rfl

theorem entry1_langDst (c : Dev nD) : W2 m ρ c (Proc.devRef .tc main_v14)
    = Cert.Spec.rowsLang (F := Ideal) (W1 m ρ c (Proc.devRef .tc main_v0_1)) (Cert.Spec.wrapIdx (F := Ideal) (W1 m ρ c (Proc.devRef .tc main_arg14))) := by
  show StableHlo.after hostOps1 (W1 m ρ c) (Proc.devRef .tc main_v14) = _
  after_results
  rfl

set_option maxHeartbeats 1600000 in
theorem entry1_featSrc (c : Dev nD) : W2 m ρ c (Proc.devRef .tc main_v21)
    = Cert.Spec.rowsFeat (F := Ideal) (W1 m ρ c (Proc.devRef .tc main_v0_0)) (Cert.Spec.wrapIdx (F := Ideal) (W1 m ρ c (Proc.devRef .tc main_arg13))) := by
  show StableHlo.after hostOps1 (W1 m ρ c) (Proc.devRef .tc main_v21) = _
  after_results
  rfl

set_option maxHeartbeats 1600000 in
theorem entry1_langSrc (c : Dev nD) : W2 m ρ c (Proc.devRef .tc main_v28)
    = Cert.Spec.rowsLang (F := Ideal) (W1 m ρ c (Proc.devRef .tc main_v0_1)) (Cert.Spec.wrapIdx (F := Ideal) (W1 m ρ c (Proc.devRef .tc main_arg13))) := by
  show StableHlo.after hostOps1 (W1 m ρ c) (Proc.devRef .tc main_v28) = _
  after_results
  rfl

/-- No host operation writes argument 4, and the node-update region does not touch it. -/
theorem entry1_arg4 (c : Dev nD) : W2 m ρ c (Proc.devRef .tc main_arg4) = (m ((c : Thread nD τ).loc main_arg4)) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    (W1_of_ne m ρ c main_arg4 (by decide))

/-- No host operation writes argument 9, and the node-update region does not touch it. -/
theorem entry1_arg9 (c : Dev nD) : W2 m ρ c (Proc.devRef .tc main_arg9) = (m ((c : Thread nD τ).loc main_arg9)) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    (W1_of_ne m ρ c main_arg9 (by decide))

/-- No host operation writes argument 10, and the node-update region does not touch it. -/
theorem entry1_arg10 (c : Dev nD) : W2 m ρ c (Proc.devRef .tc main_arg10) = (m ((c : Thread nD τ).loc main_arg10)) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    (W1_of_ne m ρ c main_arg10 (by decide))

/-- No host operation writes argument 11, and the node-update region does not touch it. -/
theorem entry1_arg11 (c : Dev nD) : W2 m ρ c (Proc.devRef .tc main_arg11) = (m ((c : Thread nD τ).loc main_arg11)) :=
  (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    (W1_of_ne m ρ c main_arg11 (by decide))

/-- No host operation writes argument 12, and the node-update region does not touch it. -/
theorem entry1_arg12 (c : Dev nD) : W2 m ρ c (Proc.devRef .tc main_arg12) = (m ((c : Thread nD τ).loc main_arg12)) :=
  (StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    (W1_of_ne m ρ c main_arg12 (by decide))

/-! ## The result -/

/-- The result array ends as the whole read-out of the arguments as launched. -/
theorem result_eq (c : Dev nD) : W3 m ρ c (Proc.devRef .tc main_v29)
    = Cert.Spec.readout (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W3_arr m ρ c 9).trans ?_
  refine (final1_9 (V2 m ρ) c).trans ?_
  show Cert.Spec.edgePred (F := Ideal) (W2 m ρ c (Proc.devRef .tc main_v7)) (W2 m ρ c (Proc.devRef .tc main_v14)) (W2 m ρ c (Proc.devRef .tc main_arg4))
      (W2 m ρ c (Proc.devRef .tc main_v28)) (W2 m ρ c (Proc.devRef .tc main_v21)) (W2 m ρ c (Proc.devRef .tc main_arg9))
      (W2 m ρ c (Proc.devRef .tc main_arg10)) (W2 m ρ c (Proc.devRef .tc main_arg11)) (W2 m ρ c (Proc.devRef .tc main_arg12)) = _
  rw [entry1_featDst, entry1_langDst, entry1_featSrc, entry1_langSrc, entry1_arg4, entry1_arg9, entry1_arg10, entry1_arg11, entry1_arg12,
    exit0_feat, exit0_lang, exit0_src, exit0_dst]
  rfl

/-- Every weakly fair execution of the program ends with the result array at the read-out of the arguments, the
    arguments unchanged. -/
theorem run_value : θ_run defs (onTc (τ := τ) (main (F := Ideal))) ⟨m, fun _ => 0, ρ⟩ (fun r => ∀ c : Dev nD,
      r.2.mem ((c.tc : Thread nD τ).loc main_v29)
        = Cert.Spec.readout (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_eq m ρ c), (h c).2⟩) (run_named m ρ)

end Cert.KernelIdeal.Rows

end
-- ==== Proof.RefSpec.lean ====
import proofs.«151339_j44023414784183_1_alg».proof.Proof.Gen.ReferenceIdeal.Run
import proofs.«151339_j44023414784183_1_alg».proof.Proof.Spec
import Idealize.ShloMosaic.PureOps.Ideal

set_option maxRecDepth 16384

noncomputable section

/-! # The reference computes the read-out

The reference is written with the very operations the specification is stated in: two dense layers with a
rectifier on all nodes, four row gathers by the wrapped node numbers, the five per-edge arrays side by side and
the two-layer classifier. Its result term is therefore `Spec.readout` of its arguments, by unfolding. -/

namespace Cert.ReferenceIdeal.RefValue

open Idealize.ShloMosaic Idealize.ShloMosaic.TcCoe Idealize.SL.Sem
open Cert.ReferenceIdeal Cert.ReferenceIdeal.Gen

theorem result_eq (m : (ℓ : Loc nD τ sig) → Buf (Elt Ideal) ℓ) (c : Dev nD) :
    Cert.ReferenceIdeal.Value.res_main_v49 (F := Ideal) m c
      = Cert.Spec.readout (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.Value.res_main_v49 Cert.Spec.readout Cert.Spec.edgePred Cert.Spec.rowsFeat Cert.Spec.rowsLang Cert.Spec.wrapIdx
    Cert.Spec.nodeFeat Cert.Spec.nodeLang
  rfl

end Cert.ReferenceIdeal.RefValue

end
-- ==== Proof.lean ====
/-
  A graph network's read-out, certified: two Pallas kernels — a node update on blocks of 400 nodes, an edge
  classifier on blocks of 400 edges — with row gathers between them, against the same computation written
  with whole-array operations.

  The mathematics. Every node gets a visual row `max (0, [A₀ | A₁] · W + b)` and a language row
  `max (0, [L₀ | L₁] · U + d)`; every edge gathers the two updated rows of its destination node and of its source
  node (a negative node number counts from the end), lays them beside its own sixteen spatial features and
  sends the 2664 numbers through `max (0, · W₁ + b₁) · W₂ + b₂`. The kernels round their matrix operands to
  a shorter float format first; on the extended reals a change of format is the identity, a matrix-unit product
  into a zero accumulator and a host product are the same sum `∑ₖ x(r, k) · w(k, c)`, and nothing else differs: no
  law of arithmetic is needed beyond reading both sides as the same sums, so the inputs' finiteness is never used.

  What joins the two sides is that a dense layer treats each row by itself. A kernel sees rows
  `400·t … 400·t + 399` of its row arrays and the weights whole; its result on that block is the block of the layer
  applied to the whole arrays (Body0, Body1, over the row-block lemmas of LibRowBlock and LibConcat5Rows). Each
  region's blocks tile its output's rows, so each output array ends as the layer of the whole inputs (Region0,
  Region1). The host stretch between the regions gathers rows of the first region's outputs and writes no
  argument (KValue), and the program's run ends with the result array at the last boundary's contents (KRun).
  Composed, the result is `Spec.readout` of the fifteen arguments; the reference's result is the same term by
  unfolding (RefSpec).

  The frames of the two kernel programs are the generated ones; the reference's frame is its generated run with
  the result dropped. The idealization rewrote nothing, so `preserves` has nothing to state.
-/
import proofs.«151339_j44023414784183_1_alg».proof.Defs
import proofs.«151339_j44023414784183_1_alg».proof.Proof.Gen.Kernel
import proofs.«151339_j44023414784183_1_alg».proof.Proof.Gen.Kernel.Skeleton
import proofs.«151339_j44023414784183_1_alg».proof.Proof.Gen.Kernel.Launch
import proofs.«151339_j44023414784183_1_alg».proof.Proof.Gen.Kernel.Points
import proofs.«151339_j44023414784183_1_alg».proof.Proof.Gen.Kernel.Frame
import proofs.«151339_j44023414784183_1_alg».proof.Proof.Gen.KernelIdeal
import proofs.«151339_j44023414784183_1_alg».proof.Proof.Gen.KernelIdeal.Skeleton
import proofs.«151339_j44023414784183_1_alg».proof.Proof.Gen.KernelIdeal.Launch
import proofs.«151339_j44023414784183_1_alg».proof.Proof.Gen.KernelIdeal.Points
import proofs.«151339_j44023414784183_1_alg».proof.Proof.Gen.KernelIdeal.Frame
import proofs.«151339_j44023414784183_1_alg».proof.Proof.Gen.ReferenceIdeal
import proofs.«151339_j44023414784183_1_alg».proof.Proof.Gen.ReferenceIdeal.Run
import proofs.«151339_j44023414784183_1_alg».proof.Proof.Gen.Pre_finite_inputs
import proofs.«151339_j44023414784183_1_alg».proof.Proof.KValue
import proofs.«151339_j44023414784183_1_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the read-out of the arguments, and the arguments agree. -/
theorem algebraic : Cert.algebraic_KernelIdeal_ReferenceIdeal := by
  intro m ρ m' ρ' _ hagree
  refine ⟨_, Cert.KernelIdeal.Rows.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.RefValue.result_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
